-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S4x256x128 : Shape := ⟨3, ![4, 256, 128]⟩
abbrev S4x2x1600000 : Shape := ⟨3, ![4, 2, 1600000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S4x256x128 : S_.BroadcastsInDim S4x256x128 (![] : Fin 0 → Fin S4x256x128.rank)
  reducesTo_S4x256x128_S_d0_1_2 : S4x256x128.ReducesTo [0, 1, 2] S_
  bcast_S_S4x2x1600000 : S_.BroadcastsInDim S4x2x1600000 (![] : Fin 0 → Fin S4x2x1600000.rank)
  reducesTo_S4x2x1600000_S_d0_1_2 : S4x2x1600000.ReducesTo [0, 1, 2] S_

variable [Facts]

def fn {F : FTy → Type} [FloatOps F] (main_arg0 : FVec F S50000x256 .f32) (main_arg1 : FVec F S4x256x128 .f32) (main_arg2 : IVec S4x2x1600000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S4x256x128 .f32 := Host.absf main_arg1
  let main_cst_0 : FVec F S_ .f32 := constant S_ .f32 0x7F800000#32
  let main_v5 : FVec F S4x256x128 .f32 := broadcastInDim S4x256x128 ![] bcast_S_S4x256x128 main_cst_0
  let main_v6 : IVec S4x256x128 1 := cmpf .olt main_v4 main_v5
  let main_c_1 : IVec S_ 1 := constantI S_ 1 1#1
  let main_v7 : IVec S_ 1 := (fun x v => Host.reduce IntOp.andi x v reducesTo_S4x256x128_S_d0_1_2 h_S_) main_v6 main_c_1
  let main_v8 : IVec S_ 1 := andi main_v3 main_v7
  let main_c_2 : IVec S_ 32 := constantI S_ 32 0#32
  let main_v9 : IVec S4x2x1600000 32 := broadcastInDim S4x2x1600000 ![] bcast_S_S4x2x1600000 main_c_2
  let main_v10 : IVec S4x2x1600000 1 := cmpi .sge main_arg2 main_v9
  let main_c_3 : IVec S_ 32 := constantI S_ 32 50000#32
  let main_v11 : IVec S4x2x1600000 32 := broadcastInDim S4x2x1600000 ![] bcast_S_S4x2x1600000 main_c_3
  let main_v12 : IVec S4x2x1600000 1 := cmpi .slt main_arg2 main_v11
  let main_v13 : IVec S4x2x1600000 1 := andi main_v10 main_v12
  let main_c_4 : IVec S_ 1 := constantI S_ 1 1#1
  let main_v14 : IVec S_ 1 := (fun x v => Host.reduce IntOp.andi x v reducesTo_S4x2x1600000_S_d0_1_2 h_S_) main_v13 main_c_4
  let main_v15 : IVec S_ 1 := andi main_v8 main_v14
  main_v15
-- ==== Kernel.lean ====
abbrev S50000x256 : Shape := ⟨2, ![50000, 256]⟩
abbrev S4x256x128 : Shape := ⟨3, ![4, 256, 128]⟩
abbrev S4x2x1600000 : Shape := ⟨3, ![4, 2, 1600000]⟩
abbrev S4x1x1600000 : Shape := ⟨3, ![4, 1, 1600000]⟩
abbrev S4x1600000 : Shape := ⟨2, ![4, 1600000]⟩
abbrev S4 : Shape := ⟨1, ![4]⟩
abbrev S_ : Shape := ⟨0, ![]⟩
abbrev S4x1 : Shape := ⟨2, ![4, 1]⟩
abbrev S6400000 : Shape := ⟨1, ![6400000]⟩
abbrev S200000 : Shape := ⟨1, ![200000]⟩
abbrev S6400000x1 : Shape := ⟨2, ![6400000, 1]⟩
abbrev S4x50000 : Shape := ⟨2, ![4, 50000]⟩
abbrev S256x4x128 : Shape := ⟨3, ![256, 4, 128]⟩
abbrev S256x512 : Shape := ⟨2, ![256, 512]⟩
abbrev S50000x512 : Shape := ⟨2, ![50000, 512]⟩
abbrev S2000x256 : Shape := ⟨2, ![2000, 256]⟩
abbrev S2000x512 : Shape := ⟨2, ![2000, 512]⟩
abbrev S50000x4x128 : Shape := ⟨3, ![50000, 4, 128]⟩
abbrev S50000x128 : Shape := ⟨2, ![50000, 128]⟩
abbrev S50000x1x128 : Shape := ⟨3, ![50000, 1, 128]⟩
abbrev S1x50000 : Shape := ⟨2, ![1, 50000]⟩
abbrev S50000 : Shape := ⟨1, ![50000]⟩
abbrev S50000x1 : Shape := ⟨2, ![50000, 1]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩

abbrev nBuf : Space → Nat
  | .hbm => 177
  | .vmem => 5
  | .smem => 0
  | _ => 0

abbrev hbmTy0_0 (i : Nat) : BufTy := match i % 128 with
  | 0 => ⟨S50000x256, .f32⟩
  | 1 => ⟨S4x256x128, .f32⟩
  | 2 => ⟨S4x2x1600000, .i32⟩
  | 3 => ⟨S4x1x1600000, .i32⟩
  | 4 => ⟨S4x1600000, .i32⟩
  | 5 => ⟨S4x1x1600000, .i32⟩
  | 6 => ⟨S4x1600000, .i32⟩
  | 7 => ⟨S4, .i32⟩
  | 8 => ⟨S_, .i32⟩
  | 9 => ⟨S4, .i32⟩
  | 10 => ⟨S4, .i32⟩
  | 11 => ⟨S4x1, .i32⟩
  | 12 => ⟨S4x1600000, .i32⟩
  | 13 => ⟨S4x1600000, .i32⟩
  | 14 => ⟨S6400000, .i32⟩
  | 15 => ⟨S_, .f32⟩
  | 16 => ⟨S6400000, .f32⟩
  | 17 => ⟨S_, .f32⟩
  | 18 => ⟨S200000, .f32⟩
  | 19 => ⟨S6400000x1, .i32⟩
  | 20 => ⟨S200000, .f32⟩
  | 21 => ⟨S4x50000, .f32⟩
  | 22 => ⟨S4, .i32⟩
  | 23 => ⟨S_, .i32⟩
  | 24 => ⟨S4, .i32⟩
  | 25 => ⟨S4, .i32⟩
  | 26 => ⟨S4x1, .i32⟩
  | 27 => ⟨S4x1600000, .i32⟩
  | 28 => ⟨S4x1600000, .i32⟩
  | 29 => ⟨S6400000, .i32⟩
  | 30 => ⟨S_, .f32⟩
  | 31 => ⟨S6400000, .f32⟩
  | 32 => ⟨S_, .f32⟩
  | 33 => ⟨S200000, .f32⟩
  | 34 => ⟨S6400000x1, .i32⟩
  | 35 => ⟨S200000, .f32⟩
  | 36 => ⟨S4x50000, .f32⟩
  | 37 => ⟨S_, .f32⟩
  | 38 => ⟨S_, .f32⟩
  | 39 => ⟨S4x50000, .f32⟩
  | 40 => ⟨S4x50000, .f32⟩
  | 41 => ⟨S_, .f32⟩
  | 42 => ⟨S4x50000, .f32⟩
  | 43 => ⟨S4x50000, .f32⟩
  | 44 => ⟨S_, .f32⟩
  | 45 => ⟨S_, .f32⟩
  | 46 => ⟨S4x50000, .f32⟩
  | 47 => ⟨S4x50000, .f32⟩
  | 48 => ⟨S_, .f32⟩
  | 49 => ⟨S4x50000, .f32⟩
  | 50 => ⟨S4x50000, .f32⟩
  | 51 => ⟨S256x4x128, .f32⟩
  | 52 => ⟨S256x512, .f32⟩
  | 53 => ⟨S50000x512, .f32⟩
  | 54 => ⟨S50000x4x128, .f32⟩
  | 55 => ⟨S_, .f32⟩
  | 56 => ⟨S50000x128, .f32⟩
  | 57 => ⟨S50000x1x128, .f32⟩
  | 58 => ⟨S50000x128, .f32⟩
  | 59 => ⟨S1x50000, .f32⟩
  | 60 => ⟨S50000, .f32⟩
  | 61 => ⟨S50000x1, .f32⟩
  | 62 => ⟨S50000x128, .f32⟩
  | 63 => ⟨S50000x128, .f32⟩
  | 64 => ⟨S1x1600000, .i32⟩
  | 65 => ⟨S1600000, .i32⟩
  | 66 => ⟨S1x1600000, .i32⟩
  | 67 => ⟨S1600000, .i32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S_, .f32⟩
  | 78 => ⟨S50000x128, .f32⟩
  | 79 => ⟨S1600000x1, .i32⟩
  | 80 => ⟨S50000x128, .f32⟩
  | 81 => ⟨S1x50000, .f32⟩
  | 82 => ⟨S50000, .f32⟩
  | 83 => ⟨S50000x1, .f32⟩
  | 84 => ⟨S50000x128, .f32⟩
  | 85 => ⟨S50000x128, .f32⟩
  | 86 => ⟨S50000x128, .f32⟩
  | 87 => ⟨S50000x1x128, .f32⟩
  | 88 => ⟨S50000x128, .f32⟩
  | 89 => ⟨S1x50000, .f32⟩
  | 90 => ⟨S50000, .f32⟩
  | 91 => ⟨S50000x1, .f32⟩
  | 92 => ⟨S50000x128, .f32⟩
  | 93 => ⟨S50000x128, .f32⟩
  | 94 => ⟨S1x1600000, .i32⟩
  | 95 => ⟨S1600000, .i32⟩
  | 96 => ⟨S1x1600000, .i32⟩
  | 97 => ⟨S1600000, .i32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S50000x128, .f32⟩
  | 109 => ⟨S1600000x1, .i32⟩
  | 110 => ⟨S50000x128, .f32⟩
  | 111 => ⟨S1x50000, .f32⟩
  | 112 => ⟨S50000, .f32⟩
  | 113 => ⟨S50000x1, .f32⟩
  | 114 => ⟨S50000x128, .f32⟩
  | 115 => ⟨S50000x128, .f32⟩
  | 116 => ⟨S50000x128, .f32⟩
  | 117 => ⟨S50000x1x128, .f32⟩
  | 118 => ⟨S50000x128, .f32⟩
  | 119 => ⟨S1x50000, .f32⟩
  | 120 => ⟨S50000, .f32⟩
  | 121 => ⟨S50000x1, .f32⟩
  | 122 => ⟨S50000x128, .f32⟩
  | 123 => ⟨S50000x128, .f32⟩
  | 124 => ⟨S1x1600000, .i32⟩
  | 125 => ⟨S1600000, .i32⟩
  | 126 => ⟨S1x1600000, .i32⟩
  | 127 => ⟨S1600000, .i32⟩
  | _ => ⟨S50000x256, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S50000x128, .f32⟩
  | 11 => ⟨S1600000x1, .i32⟩
  | 12 => ⟨S50000x128, .f32⟩
  | 13 => ⟨S1x50000, .f32⟩
  | 14 => ⟨S50000, .f32⟩
  | 15 => ⟨S50000x1, .f32⟩
  | 16 => ⟨S50000x128, .f32⟩
  | 17 => ⟨S50000x128, .f32⟩
  | 18 => ⟨S50000x128, .f32⟩
  | 19 => ⟨S50000x1x128, .f32⟩
  | 20 => ⟨S50000x128, .f32⟩
  | 21 => ⟨S1x50000, .f32⟩
  | 22 => ⟨S50000, .f32⟩
  | 23 => ⟨S50000x1, .f32⟩
  | 24 => ⟨S50000x128, .f32⟩
  | 25 => ⟨S50000x128, .f32⟩
  | 26 => ⟨S1x1600000, .i32⟩
  | 27 => ⟨S1600000, .i32⟩
  | 28 => ⟨S1x1600000, .i32⟩
  | 29 => ⟨S1600000, .i32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S50000x128, .f32⟩
  | 41 => ⟨S1600000x1, .i32⟩
  | 42 => ⟨S50000x128, .f32⟩
  | 43 => ⟨S1x50000, .f32⟩
  | 44 => ⟨S50000, .f32⟩
  | 45 => ⟨S50000x1, .f32⟩
  | 46 => ⟨S50000x128, .f32⟩
  | 47 => ⟨S50000x128, .f32⟩
  | 48 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S2000x512, .f32⟩
  | .local _ .vmem, ⟨4, _⟩ => ⟨S2000x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_12 : Ref sig .tc := ⟨.hbm, 98, rfl⟩
abbrev main_v77 : Ref sig .tc := ⟨.hbm, 99, rfl⟩
abbrev main_v78 : Ref sig .tc := ⟨.hbm, 100, rfl⟩
abbrev main_c_13 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_c_15 : Ref sig .tc := ⟨.hbm, 128, rfl⟩
abbrev main_v104 : Ref sig .tc := ⟨.hbm, 129, rfl⟩
abbrev main_v105 : Ref sig .tc := ⟨.hbm, 130, rfl⟩
abbrev main_c_16 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_17 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_c_18 : Ref sig .tc := ⟨.hbm, 158, rfl⟩
abbrev main_v131 : Ref sig .tc := ⟨.hbm, 159, rfl⟩
abbrev main_v132 : Ref sig .tc := ⟨.hbm, 160, rfl⟩
abbrev main_c_19 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_20 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S4x2x1600000_S4x1x1600000_0_0_0 : S4x2x1600000.Slices ![0, 0, 0] S4x1x1600000
  shapeCasts_S4x1x1600000_S4x1600000 : S4x1x1600000.ShapeCasts S4x1600000
  slices_S4x2x1600000_S4x1x1600000_0_1_0 : S4x2x1600000.Slices ![0, 1, 0] S4x1x1600000
  bcast_S_S4 : S_.BroadcastsInDim S4 (![] : Fin 0 → Fin S4.rank)
  bcast_S4_S4x1_0 : S4.BroadcastsInDim S4x1 (![0] : Fin 1 → Fin S4x1.rank)
  bcast_S4x1_S4x1600000_0_1 : S4x1.BroadcastsInDim S4x1600000 (![0, 1] : Fin 2 → Fin S4x1600000.rank)
  shapeCasts_S4x1600000_S6400000 : S4x1600000.ShapeCasts S6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  shapeCasts_S200000_S4x50000 : S200000.ShapeCasts S4x50000
  bcast_S_S4x50000 : S_.BroadcastsInDim S4x50000 (![] : Fin 0 → Fin S4x50000.rank)
  transposes_S4x256x128_S256x4x128_1_0_2 : S4x256x128.Transposes [1, 0, 2] S256x4x128
  shapeCasts_S256x4x128_S256x512 : S256x4x128.ShapeCasts S256x512
  inb_S2000x256_S2000x256_0_0 : ∀ a, (![0, 0] : Fin 2 → Nat) a + S2000x256.size a ≤ S2000x256.size a
  h_S2000x256 : 0 < S2000x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S50000x512_S50000x4x128 : S50000x512.ShapeCasts S50000x4x128
  bcast_S_S50000x128 : S_.BroadcastsInDim S50000x128 (![] : Fin 0 → Fin S50000x128.rank)
  slices_S50000x4x128_S50000x1x128_0_0_0 : S50000x4x128.Slices ![0, 0, 0] S50000x1x128
  shapeCasts_S50000x1x128_S50000x128 : S50000x1x128.ShapeCasts S50000x128
  slices_S4x50000_S1x50000_0_0 : S4x50000.Slices ![0, 0] S1x50000
  shapeCasts_S1x50000_S50000 : S1x50000.ShapeCasts S50000
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S4x1600000_S1x1600000_0_0 : S4x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S50000x4x128_S50000x1x128_0_1_0 : S50000x4x128.Slices ![0, 1, 0] S50000x1x128
  slices_S4x50000_S1x50000_1_0 : S4x50000.Slices ![1, 0] S1x50000
  slices_S4x1600000_S1x1600000_1_0 : S4x1600000.Slices ![1, 0] S1x1600000
  slices_S50000x4x128_S50000x1x128_0_2_0 : S50000x4x128.Slices ![0, 2, 0] S50000x1x128
  slices_S4x50000_S1x50000_2_0 : S4x50000.Slices ![2, 0] S1x50000
  slices_S4x1600000_S1x1600000_2_0 : S4x1600000.Slices ![2, 0] S1x1600000
  slices_S50000x4x128_S50000x1x128_0_3_0 : S50000x4x128.Slices ![0, 3, 0] S50000x1x128
  slices_S4x50000_S1x50000_3_0 : S4x50000.Slices ![3, 0] S1x50000
  slices_S4x1600000_S1x1600000_3_0 : S4x1600000.Slices ![3, 0] S1x1600000
  scatter_S200000_S6400000x1_S6400000_n_0_0_1_wf : ScatterDims.WF S200000 S6400000x1 S6400000 [] [0] [0] 1
  dot_S2000x256_S256x512_S2000x512_1_0_0_1_n_n_wf : DotDims.WF S2000x256 S256x512 S2000x512 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S4x256x128 : Shape := ⟨3, ![4, 256, 128]⟩
abbrev S4x2x1600000 : Shape := ⟨3, ![4, 2, 1600000]⟩
abbrev S_ : Shape := ⟨0, ![]⟩
abbrev S50000x128 : Shape := ⟨2, ![50000, 128]⟩
abbrev S1x256x128 : Shape := ⟨3, ![1, 256, 128]⟩
abbrev S256x128 : Shape := ⟨2, ![256, 128]⟩
abbrev S1x1x1600000 : Shape := ⟨3, ![1, 1, 1600000]⟩
abbrev S1600000 : Shape := ⟨1, ![1600000]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩

abbrev nBuf : Space → Nat
  | .hbm => 209
  | .vmem => 0
  | .smem => 0
  | _ => 0

abbrev hbmTy0_0 (i : Nat) : BufTy := match i % 128 with
  | 0 => ⟨S50000x256, .f32⟩
  | 1 => ⟨S4x256x128, .f32⟩
  | 2 => ⟨S4x2x1600000, .i32⟩
  | 3 => ⟨S_, .f32⟩
  | 4 => ⟨S50000x128, .f32⟩
  | 5 => ⟨S1x256x128, .f32⟩
  | 6 => ⟨S256x128, .f32⟩
  | 7 => ⟨S1x1x1600000, .i32⟩
  | 8 => ⟨S1600000, .i32⟩
  | 9 => ⟨S1x1x1600000, .i32⟩
  | 10 => ⟨S1600000, .i32⟩
  | 11 => ⟨S_, .f32⟩
  | 12 => ⟨S1600000, .f32⟩
  | 13 => ⟨S_, .f32⟩
  | 14 => ⟨S50000, .f32⟩
  | 15 => ⟨S1600000x1, .i32⟩
  | 16 => ⟨S50000, .f32⟩
  | 17 => ⟨S_, .f32⟩
  | 18 => ⟨S50000, .f32⟩
  | 19 => ⟨S1600000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x256, .f32⟩
  | 37 => ⟨S50000x256, .f32⟩
  | 38 => ⟨S50000x128, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S_, .f32⟩
  | 49 => ⟨S50000x128, .f32⟩
  | 50 => ⟨S1600000x1, .i32⟩
  | 51 => ⟨S50000x128, .f32⟩
  | 52 => ⟨S50000x1, .f32⟩
  | 53 => ⟨S50000x128, .f32⟩
  | 54 => ⟨S50000x128, .f32⟩
  | 55 => ⟨S50000x128, .f32⟩
  | 56 => ⟨S1x256x128, .f32⟩
  | 57 => ⟨S256x128, .f32⟩
  | 58 => ⟨S1x1x1600000, .i32⟩
  | 59 => ⟨S1600000, .i32⟩
  | 60 => ⟨S1x1x1600000, .i32⟩
  | 61 => ⟨S1600000, .i32⟩
  | 62 => ⟨S_, .f32⟩
  | 63 => ⟨S1600000, .f32⟩
  | 64 => ⟨S_, .f32⟩
  | 65 => ⟨S50000, .f32⟩
  | 66 => ⟨S1600000x1, .i32⟩
  | 67 => ⟨S50000, .f32⟩
  | 68 => ⟨S_, .f32⟩
  | 69 => ⟨S50000, .f32⟩
  | 70 => ⟨S1600000x1, .i32⟩
  | 71 => ⟨S50000, .f32⟩
  | 72 => ⟨S_, .f32⟩
  | 73 => ⟨S_, .f32⟩
  | 74 => ⟨S50000, .f32⟩
  | 75 => ⟨S50000, .f32⟩
  | 76 => ⟨S_, .f32⟩
  | 77 => ⟨S50000, .f32⟩
  | 78 => ⟨S50000, .f32⟩
  | 79 => ⟨S_, .f32⟩
  | 80 => ⟨S_, .f32⟩
  | 81 => ⟨S50000, .f32⟩
  | 82 => ⟨S50000, .f32⟩
  | 83 => ⟨S_, .f32⟩
  | 84 => ⟨S50000, .f32⟩
  | 85 => ⟨S50000, .f32⟩
  | 86 => ⟨S50000x1, .f32⟩
  | 87 => ⟨S50000x256, .f32⟩
  | 88 => ⟨S50000x256, .f32⟩
  | 89 => ⟨S50000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S50000x128, .f32⟩
  | 101 => ⟨S1600000x1, .i32⟩
  | 102 => ⟨S50000x128, .f32⟩
  | 103 => ⟨S50000x1, .f32⟩
  | 104 => ⟨S50000x128, .f32⟩
  | 105 => ⟨S50000x128, .f32⟩
  | 106 => ⟨S50000x128, .f32⟩
  | 107 => ⟨S1x256x128, .f32⟩
  | 108 => ⟨S256x128, .f32⟩
  | 109 => ⟨S1x1x1600000, .i32⟩
  | 110 => ⟨S1600000, .i32⟩
  | 111 => ⟨S1x1x1600000, .i32⟩
  | 112 => ⟨S1600000, .i32⟩
  | 113 => ⟨S_, .f32⟩
  | 114 => ⟨S1600000, .f32⟩
  | 115 => ⟨S_, .f32⟩
  | 116 => ⟨S50000, .f32⟩
  | 117 => ⟨S1600000x1, .i32⟩
  | 118 => ⟨S50000, .f32⟩
  | 119 => ⟨S_, .f32⟩
  | 120 => ⟨S50000, .f32⟩
  | 121 => ⟨S1600000x1, .i32⟩
  | 122 => ⟨S50000, .f32⟩
  | 123 => ⟨S_, .f32⟩
  | 124 => ⟨S_, .f32⟩
  | 125 => ⟨S50000, .f32⟩
  | 126 => ⟨S50000, .f32⟩
  | 127 => ⟨S_, .f32⟩
  | _ => ⟨S50000x256, .f32⟩

abbrev hbmTy0_1 (i : Nat) : BufTy := match i % 128 with
  | 0 => ⟨S50000, .f32⟩
  | 1 => ⟨S50000, .f32⟩
  | 2 => ⟨S_, .f32⟩
  | 3 => ⟨S_, .f32⟩
  | 4 => ⟨S50000, .f32⟩
  | 5 => ⟨S50000, .f32⟩
  | 6 => ⟨S_, .f32⟩
  | 7 => ⟨S50000, .f32⟩
  | 8 => ⟨S50000, .f32⟩
  | 9 => ⟨S50000x1, .f32⟩
  | 10 => ⟨S50000x256, .f32⟩
  | 11 => ⟨S50000x256, .f32⟩
  | 12 => ⟨S50000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S50000x128, .f32⟩
  | 24 => ⟨S1600000x1, .i32⟩
  | 25 => ⟨S50000x128, .f32⟩
  | 26 => ⟨S50000x1, .f32⟩
  | 27 => ⟨S50000x128, .f32⟩
  | 28 => ⟨S50000x128, .f32⟩
  | 29 => ⟨S50000x128, .f32⟩
  | 30 => ⟨S1x256x128, .f32⟩
  | 31 => ⟨S256x128, .f32⟩
  | 32 => ⟨S1x1x1600000, .i32⟩
  | 33 => ⟨S1600000, .i32⟩
  | 34 => ⟨S1x1x1600000, .i32⟩
  | 35 => ⟨S1600000, .i32⟩
  | 36 => ⟨S_, .f32⟩
  | 37 => ⟨S1600000, .f32⟩
  | 38 => ⟨S_, .f32⟩
  | 39 => ⟨S50000, .f32⟩
  | 40 => ⟨S1600000x1, .i32⟩
  | 41 => ⟨S50000, .f32⟩
  | 42 => ⟨S_, .f32⟩
  | 43 => ⟨S50000, .f32⟩
  | 44 => ⟨S1600000x1, .i32⟩
  | 45 => ⟨S50000, .f32⟩
  | 46 => ⟨S_, .f32⟩
  | 47 => ⟨S_, .f32⟩
  | 48 => ⟨S50000, .f32⟩
  | 49 => ⟨S50000, .f32⟩
  | 50 => ⟨S_, .f32⟩
  | 51 => ⟨S50000, .f32⟩
  | 52 => ⟨S50000, .f32⟩
  | 53 => ⟨S_, .f32⟩
  | 54 => ⟨S_, .f32⟩
  | 55 => ⟨S50000, .f32⟩
  | 56 => ⟨S50000, .f32⟩
  | 57 => ⟨S_, .f32⟩
  | 58 => ⟨S50000, .f32⟩
  | 59 => ⟨S50000, .f32⟩
  | 60 => ⟨S50000x1, .f32⟩
  | 61 => ⟨S50000x256, .f32⟩
  | 62 => ⟨S50000x256, .f32⟩
  | 63 => ⟨S50000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S50000x128, .f32⟩
  | 75 => ⟨S1600000x1, .i32⟩
  | 76 => ⟨S50000x128, .f32⟩
  | 77 => ⟨S50000x1, .f32⟩
  | 78 => ⟨S50000x128, .f32⟩
  | 79 => ⟨S50000x128, .f32⟩
  | 80 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_call2_v0 : Ref sig .tc := ⟨.hbm, 73, rfl⟩
abbrev main_call2_v1 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_call3_v0 : Ref sig .tc := ⟨.hbm, 80, rfl⟩
abbrev main_call3_v1 : Ref sig .tc := ⟨.hbm, 81, rfl⟩
abbrev main_v54 : Ref sig .tc := ⟨.hbm, 82, rfl⟩
abbrev main_cst_15 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_16 : Ref sig .tc := ⟨.hbm, 90, rfl⟩
abbrev main_v61 : Ref sig .tc := ⟨.hbm, 91, rfl⟩
abbrev main_v62 : Ref sig .tc := ⟨.hbm, 92, rfl⟩
abbrev main_c_17 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_18 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_19 : Ref sig .tc := ⟨.hbm, 113, rfl⟩
abbrev main_v81 : Ref sig .tc := ⟨.hbm, 114, rfl⟩
abbrev main_cst_20 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_21 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_22 : Ref sig .tc := ⟨.hbm, 123, rfl⟩
abbrev main_call4_v0 : Ref sig .tc := ⟨.hbm, 124, rfl⟩
abbrev main_call4_v1 : Ref sig .tc := ⟨.hbm, 125, rfl⟩
abbrev main_v88 : Ref sig .tc := ⟨.hbm, 126, rfl⟩
abbrev main_cst_23 : Ref sig .tc := ⟨.hbm, 127, rfl⟩
abbrev main_v89 : Ref sig .tc := ⟨.hbm, 128, rfl⟩
abbrev main_v90 : Ref sig .tc := ⟨.hbm, 129, rfl⟩
abbrev main_cst_24 : Ref sig .tc := ⟨.hbm, 130, rfl⟩
abbrev main_call5_v0 : Ref sig .tc := ⟨.hbm, 131, rfl⟩
abbrev main_call5_v1 : Ref sig .tc := ⟨.hbm, 132, rfl⟩
abbrev main_v91 : Ref sig .tc := ⟨.hbm, 133, rfl⟩
abbrev main_cst_25 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_26 : Ref sig .tc := ⟨.hbm, 141, rfl⟩
abbrev main_v98 : Ref sig .tc := ⟨.hbm, 142, rfl⟩
abbrev main_v99 : Ref sig .tc := ⟨.hbm, 143, rfl⟩
abbrev main_c_27 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_28 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_29 : Ref sig .tc := ⟨.hbm, 164, rfl⟩
abbrev main_v118 : Ref sig .tc := ⟨.hbm, 165, rfl⟩
abbrev main_cst_30 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_31 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_32 : Ref sig .tc := ⟨.hbm, 174, rfl⟩
abbrev main_call6_v0 : Ref sig .tc := ⟨.hbm, 175, rfl⟩
abbrev main_call6_v1 : Ref sig .tc := ⟨.hbm, 176, rfl⟩
abbrev main_v125 : Ref sig .tc := ⟨.hbm, 177, rfl⟩
abbrev main_cst_33 : Ref sig .tc := ⟨.hbm, 178, rfl⟩
abbrev main_v126 : Ref sig .tc := ⟨.hbm, 179, rfl⟩
abbrev main_v127 : Ref sig .tc := ⟨.hbm, 180, rfl⟩
abbrev main_cst_34 : Ref sig .tc := ⟨.hbm, 181, rfl⟩
abbrev main_call7_v0 : Ref sig .tc := ⟨.hbm, 182, rfl⟩
abbrev main_call7_v1 : Ref sig .tc := ⟨.hbm, 183, rfl⟩
abbrev main_v128 : Ref sig .tc := ⟨.hbm, 184, rfl⟩
abbrev main_cst_35 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_c_36 : Ref sig .tc := ⟨.hbm, 192, rfl⟩
abbrev main_v135 : Ref sig .tc := ⟨.hbm, 193, rfl⟩
abbrev main_v136 : Ref sig .tc := ⟨.hbm, 194, rfl⟩
abbrev main_c_37 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_38 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S4x256x128_S1x256x128_0_0_0 : S4x256x128.Slices ![0, 0, 0] S1x256x128
  shapeCasts_S1x256x128_S256x128 : S1x256x128.ShapeCasts S256x128
  slices_S4x2x1600000_S1x1x1600000_0_0_0 : S4x2x1600000.Slices ![0, 0, 0] S1x1x1600000
  shapeCasts_S1x1x1600000_S1600000 : S1x1x1600000.ShapeCasts S1600000
  slices_S4x2x1600000_S1x1x1600000_0_1_0 : S4x2x1600000.Slices ![0, 1, 0] S1x1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S50000x1_S50000x128_0_1 : S50000x1.BroadcastsInDim S50000x128 (![0, 1] : Fin 2 → Fin S50000x128.rank)
  slices_S4x256x128_S1x256x128_1_0_0 : S4x256x128.Slices ![1, 0, 0] S1x256x128
  slices_S4x2x1600000_S1x1x1600000_1_0_0 : S4x2x1600000.Slices ![1, 0, 0] S1x1x1600000
  slices_S4x2x1600000_S1x1x1600000_1_1_0 : S4x2x1600000.Slices ![1, 1, 0] S1x1x1600000
  slices_S4x256x128_S1x256x128_2_0_0 : S4x256x128.Slices ![2, 0, 0] S1x256x128
  slices_S4x2x1600000_S1x1x1600000_2_0_0 : S4x2x1600000.Slices ![2, 0, 0] S1x1x1600000
  slices_S4x2x1600000_S1x1x1600000_2_1_0 : S4x2x1600000.Slices ![2, 1, 0] S1x1x1600000
  slices_S4x256x128_S1x256x128_3_0_0 : S4x256x128.Slices ![3, 0, 0] S1x256x128
  slices_S4x2x1600000_S1x1x1600000_3_0_0 : S4x2x1600000.Slices ![3, 0, 0] S1x1x1600000
  slices_S4x2x1600000_S1x1x1600000_3_1_0 : S4x2x1600000.Slices ![3, 1, 0] S1x1x1600000
  scatter_S50000_S1600000x1_S1600000_n_0_0_1_wf : ScatterDims.WF S50000 S1600000x1 S1600000 [] [0] [0] 1
  dot_S50000x256_S256x128_S50000x128_1_0_0_1_n_n_wf : DotDims.WF S50000x256 S256x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.KernelFrame.lean ====
/-
  The frame of the program: every weakly fair run of @main ends, faults nowhere and leaves the three argument arrays
  as they were; and, beyond the frame, what the run leaves in every array of the one pipelined region.
  @main is five stretches of host operations, the region (a 25-point grid; at point t the body multiplies rows
  2000·t … 2000·t+1999 of X by the packed weights and stores the product into the same rows of the result), and a
  last stretch of 123 host operations that read the product.
  Proof data: each array as the region finds it; after the body at point t the two input buffers hold their blocks and
  the output buffer holds the body's one store over them. The body obligation is the body's triple at a generic
  point; the run is the library's frame run around a region followed by host operations.
-/
import proofs.«416891_j20418274525632_3_alg».proof.Proof.Gen.Kernel.Launch
import proofs.«416891_j20418274525632_3_alg».proof.Proof.Gen.Kernel.Skeleton
import proofs.«416891_j20418274525632_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the five host stretches before it. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main around the region: the five host stretches before it, the region, the host stretch after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
set_option maxHeartbeats 4000000 in
/-- None writes window w's array: each writes its own result buffer only, and that is no array. -/
theorem hostOps1_keeps (w : Fin 3) : (hostOps1 : List (HloOp τ sig (Elt F))).Forall fun op =>
    Proc.devRef .tc (Pipeline.arrRef spec0 w) ∉ op.writes := by
  fin_cases w
  all_goals
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact (List.forall_iff_forall_mem.mp (hostOps1_keeps w)) op hop

/-- No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

-- No host operation after the region writes an argument that is no array of the region.
set_option maxHeartbeats 4000000 in
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 4000000 in
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses, and what it leaves in the output buffer -/

abbrev rX : Rect S2000x256 := Rect.unit (s := S2000x256) ![0, 0] S2000x256.size inb_S2000x256_S2000x256_0_0
abbrev rW : Rect S256x512 := Rect.unit (s := S256x512) ![0, 0] S256x512.size inb_S256x512_S256x512_0_0
abbrev rO : Rect S2000x512 := Rect.unit (s := S2000x512) ![0, 0] S2000x512.size inb_S2000x512_S2000x512_0_0

/-- The output buffer after the body, from the two input blocks: its one store, of the product. -/
def out0_2 (x0 : Vec F S2000x256 .f32) (x1 : Vec F S256x512 .f32) : Vec F S2000x512 .f32 :=
  View.canon [⟨rO, k0_pay1 (View.ld x0 rX) (View.ld x1 rW)⟩]

/-! ## The proof data -/

/-- The arrays as the region finds them; after the body at point t each input's buffer at its block and the output's
    at the product of the two blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-! ## What the body finds in the input buffers -/

/-- Input window 0's current buffer holds its block at every point (it is fetched at each). -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Input window 1's current buffer holds its block at every point: fetched at the first, and its block index never
    moves, so the buffer still holds that block at every later point. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body's triple -/

/-- The body's one store is of the whole output buffer. -/
theorem cover0_2 (p0 : Vec F S2000x512 .f32) (y : S2000x512.Idx) :
    ∃ pc ∈ ([⟨rO, p0⟩] : List (View.Piece (Elt F) S2000x512 .f32)), y ∈ pc.1.set :=
  View.cover_of_tiled [⟨rO, p0⟩] S2000x512.size (by rfl) y

set_option maxHeartbeats 1000000 in
/-- The body on whole buffers, the inputs' at read contents x0 and x1 and the output's at anything, runs to the
    continuation holding the inputs' as they were and the output's at the product: it loads the three buffers whole
    (what it loads of the output is not used) and stores the product over the whole output buffer. -/
theorem sound_kernel (c : Dev nD) (E : Set ℕ) (i : grid0.Coords)
    (arg1 : Memref sig .tc .vmem S2000x256 .f32) (harg1 : arg1.IsWhole)
    (arg2 : Memref sig .tc .vmem S256x512 .f32) (harg2 : arg2.IsWhole)
    (arg3 : Memref sig .tc .vmem S2000x512 .f32) (harg3 : arg3.IsWhole)
    (x0 : Vec F S2000x256 .f32) (x1 : Vec F S256x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run ends, faults nowhere, and the three arguments end as launched — the first as the array of an
    input window, which the region leaves as it found it; the other two as buffers the region bypasses and no host
    operation after it writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).1 0).trans (((dats m 0 c).arrAt_in 0 rfl _).trans ((A_eq m c 0).trans (V_main_arg0 m c)))),
     (((h c).2 main_arg1 (Pipeline.mem_restRefs_of main_arg1 (by decide) (by decide))).trans (W_main_arg1 m (dats m) c)),
     (((h c).2 main_arg2 (Pipeline.mem_restRefs_of main_arg2 (by decide) (by decide))).trans (W_main_arg2 m (dats m) c))⟩)
    (run_main m ρ)

end Cert.Kernel.Hand

end
-- ==== Proof.KernelIdealFrame.lean ====
/-
  The frame of the program: every weakly fair run of @main ends, faults nowhere and leaves the three argument arrays
  as they were; and, beyond the frame, what the run leaves in every array of the one pipelined region.
  @main is five stretches of host operations, the region (a 25-point grid; at point t the body multiplies rows
  2000·t … 2000·t+1999 of X by the packed weights and stores the product into the same rows of the result), and a
  last stretch of 123 host operations that read the product.
  Proof data: each array as the region finds it; after the body at point t the two input buffers hold their blocks and
  the output buffer holds the body's one store over them. The body obligation is the body's triple at a generic
  point; the run is the library's frame run around a region followed by host operations.
-/
import proofs.«416891_j20418274525632_3_alg».proof.Proof.Gen.KernelIdeal.Launch
import proofs.«416891_j20418274525632_3_alg».proof.Proof.Gen.KernelIdeal.Skeleton
import proofs.«416891_j20418274525632_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the five host stretches before it. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main around the region: the five host stretches before it, the region, the host stretch after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
set_option maxHeartbeats 4000000 in
/-- None writes window w's array: each writes its own result buffer only, and that is no array. -/
theorem hostOps1_keeps (w : Fin 3) : (hostOps1 : List (HloOp τ sig (Elt F))).Forall fun op =>
    Proc.devRef .tc (Pipeline.arrRef spec0 w) ∉ op.writes := by
  fin_cases w
  all_goals
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact (List.forall_iff_forall_mem.mp (hostOps1_keeps w)) op hop

/-- No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

-- No host operation after the region writes an argument that is no array of the region.
set_option maxHeartbeats 4000000 in
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 4000000 in
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses, and what it leaves in the output buffer -/

abbrev rX : Rect S2000x256 := Rect.unit (s := S2000x256) ![0, 0] S2000x256.size inb_S2000x256_S2000x256_0_0
abbrev rW : Rect S256x512 := Rect.unit (s := S256x512) ![0, 0] S256x512.size inb_S256x512_S256x512_0_0
abbrev rO : Rect S2000x512 := Rect.unit (s := S2000x512) ![0, 0] S2000x512.size inb_S2000x512_S2000x512_0_0

/-- The output buffer after the body, from the two input blocks: its one store, of the product. -/
def out0_2 (x0 : Vec F S2000x256 .f32) (x1 : Vec F S256x512 .f32) : Vec F S2000x512 .f32 :=
  View.canon [⟨rO, k0_pay1 (View.ld x0 rX) (View.ld x1 rW)⟩]

/-! ## The proof data -/

/-- The arrays as the region finds them; after the body at point t each input's buffer at its block and the output's
    at the product of the two blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-! ## What the body finds in the input buffers -/

/-- Input window 0's current buffer holds its block at every point (it is fetched at each). -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Input window 1's current buffer holds its block at every point: fetched at the first, and its block index never
    moves, so the buffer still holds that block at every later point. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body's triple -/

/-- The body's one store is of the whole output buffer. -/
theorem cover0_2 (p0 : Vec F S2000x512 .f32) (y : S2000x512.Idx) :
    ∃ pc ∈ ([⟨rO, p0⟩] : List (View.Piece (Elt F) S2000x512 .f32)), y ∈ pc.1.set :=
  View.cover_of_tiled [⟨rO, p0⟩] S2000x512.size (by rfl) y

set_option maxHeartbeats 1000000 in
/-- The body on whole buffers, the inputs' at read contents x0 and x1 and the output's at anything, runs to the
    continuation holding the inputs' as they were and the output's at the product: it loads the three buffers whole
    (what it loads of the output is not used) and stores the product over the whole output buffer. -/
theorem sound_kernel (c : Dev nD) (E : Set ℕ) (i : grid0.Coords)
    (arg1 : Memref sig .tc .vmem S2000x256 .f32) (harg1 : arg1.IsWhole)
    (arg2 : Memref sig .tc .vmem S256x512 .f32) (harg2 : arg2.IsWhole)
    (arg3 : Memref sig .tc .vmem S2000x512 .f32) (harg3 : arg3.IsWhole)
    (x0 : Vec F S2000x256 .f32) (x1 : Vec F S256x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run ends, faults nowhere, and the three arguments end as launched — the first as the array of an
    input window, which the region leaves as it found it; the other two as buffers the region bypasses and no host
    operation after it writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).1 0).trans (((dats m 0 c).arrAt_in 0 rfl _).trans ((A_eq m c 0).trans (V_main_arg0 m c)))),
     (((h c).2 main_arg1 (Pipeline.mem_restRefs_of main_arg1 (by decide) (by decide))).trans (W_main_arg1 m (dats m) c)),
     (((h c).2 main_arg2 (Pipeline.mem_restRefs_of main_arg2 (by decide) (by decide))).trans (W_main_arg2 m (dats m) c))⟩)
    (run_main m ρ)

end Cert.KernelIdeal.Hand

end
-- ==== Proof.KStages.lean ====
/-
  The idealized kernel's host arithmetic as a handful of named array functions: the two endpoint tables (all four
  relations' sources, all four relations' destinations), the degree table counted in ONE scatter-add over node ids
  shifted by relation·50000, its norm max(1, deg)^(-1/2), the four weight matrices packed side by side, and per
  relation r the scaled projection, the endpoint rows, the norm row, and the message aggregation
  (gather rows at the sources, scatter-add them at the destinations, scale row n by the in-degree norm of n).
  The result is the sum over r of the aggregations.
-/
import proofs.«416891_j20418274525632_3_alg».proof.KernelIdeal
import proofs.«416891_j20418274525632_3_alg».proof.Proof.Gen.KernelIdeal

noncomputable section

namespace Cert.KernelIdeal.Stg

open Idealize.ShloMosaic Cert.KernelIdeal Cert.KernelIdeal.Gen

variable {F : FTy → Type} [FloatOps F]

/-- All sources: entry (r, e) is the source node of edge e of relation r. -/
def srcAll (e : IVec S4x2x1600000 32) : IVec S4x1600000 32 :=
  shapeCast _ (extractStridedSlice S4x1x1600000 ![0, 0, 0] e slices_S4x2x1600000_S4x1x1600000_0_0_0) shapeCasts_S4x1x1600000_S4x1600000
/-- All destinations: entry (r, e) is the destination node of edge e of relation r. -/
def dstAll (e : IVec S4x2x1600000 32) : IVec S4x1600000 32 :=
  shapeCast _ (extractStridedSlice S4x1x1600000 ![0, 1, 0] e slices_S4x2x1600000_S4x1x1600000_0_1_0) shapeCasts_S4x1x1600000_S4x1600000

/-- The node ids of all relations laid end to end, relation r's shifted by r·50000. -/
def flatIds (ix : IVec S4x1600000 32) : IVec S6400000 32 :=
  shapeCast _ (addi ix (broadcastInDim S4x1600000 ![0, 1] bcast_S4x1_S4x1600000_0_1 (broadcastInDim S4x1 ![0] bcast_S4_S4x1_0
    (muli (iotaInDim S4 32 0) (broadcastInDim S4 ![] bcast_S_S4 (constantI S_ 32 50000#32)))))) shapeCasts_S4x1600000_S6400000

/-- Degrees of all relations in one scatter-add of ones into 4·50000 bins; entry (r, v) counts the edges of
    relation r whose endpoint is v — when every id is a node id. -/
def degAll (ix : IVec S4x1600000 32) : FVec F S4x50000 .f32 :=
  shapeCast _ (Host.scatterAdd scatter_S200000_S6400000x1_S6400000_n_0_0_1
    (broadcastInDim S200000 ![] bcast_S_S200000 (constant S_ .f32 0x00000000#32))
    (broadcastInDim S6400000x1 ![0] bcast_S6400000_S6400000x1_0 (flatIds ix))
    (broadcastInDim S6400000 ![] bcast_S_S6400000 (constant S_ .f32 0x3F800000#32))) shapeCasts_S200000_S4x50000

/-- max(1, degree)^(-1/2), all relations. -/
def normAll (ix : IVec S4x1600000 32) : FVec F S4x50000 .f32 :=
  Host.powf (maximumf (broadcastInDim S4x50000 ![] bcast_S_S4x50000 (id (constant S_ .f32 0x3F800000#32))) (degAll ix))
    (broadcastInDim S4x50000 ![] bcast_S_S4x50000 (constant S_ .f32 0xBF000000#32))

/-- The four [256, 128] weight matrices side by side: column r·128 + j of row k is W[r, k, j]. -/
def wPacked (W : FVec F S4x256x128 .f32) : FVec F S256x512 .f32 :=
  shapeCast _ (transpose S256x4x128 [1, 0, 2] W transposes_S4x256x128_S256x4x128_1_0_2) shapeCasts_S256x4x128_S256x512

/-- Row 0 of a [4, E] integer array: relation 0's edge endpoints. -/
def rowI0 (ix : IVec S4x1600000 32) : IVec S1600000 32 :=
  shapeCast _ (extractStridedSlice S1x1600000 ![0, 0] ix slices_S4x1600000_S1x1600000_0_0) shapeCasts_S1x1600000_S1600000
/-- Row 0 of a [4, N] float array: relation 0's per-node norms. -/
def rowF0 (N : FVec F S4x50000 .f32) : FVec F S50000 .f32 :=
  shapeCast _ (extractStridedSlice S1x50000 ![0, 0] N slices_S4x50000_S1x50000_0_0) shapeCasts_S1x50000_S50000

/-- Row 1 of a [4, E] integer array: relation 1's edge endpoints. -/
def rowI1 (ix : IVec S4x1600000 32) : IVec S1600000 32 :=
  shapeCast _ (extractStridedSlice S1x1600000 ![1, 0] ix slices_S4x1600000_S1x1600000_1_0) shapeCasts_S1x1600000_S1600000
/-- Row 1 of a [4, N] float array: relation 1's per-node norms. -/
def rowF1 (N : FVec F S4x50000 .f32) : FVec F S50000 .f32 :=
  shapeCast _ (extractStridedSlice S1x50000 ![1, 0] N slices_S4x50000_S1x50000_1_0) shapeCasts_S1x50000_S50000

/-- Row 2 of a [4, E] integer array: relation 2's edge endpoints. -/
def rowI2 (ix : IVec S4x1600000 32) : IVec S1600000 32 :=
  shapeCast _ (extractStridedSlice S1x1600000 ![2, 0] ix slices_S4x1600000_S1x1600000_2_0) shapeCasts_S1x1600000_S1600000
/-- Row 2 of a [4, N] float array: relation 2's per-node norms. -/
def rowF2 (N : FVec F S4x50000 .f32) : FVec F S50000 .f32 :=
  shapeCast _ (extractStridedSlice S1x50000 ![2, 0] N slices_S4x50000_S1x50000_2_0) shapeCasts_S1x50000_S50000

/-- Row 3 of a [4, E] integer array: relation 3's edge endpoints. -/
def rowI3 (ix : IVec S4x1600000 32) : IVec S1600000 32 :=
  shapeCast _ (extractStridedSlice S1x1600000 ![3, 0] ix slices_S4x1600000_S1x1600000_3_0) shapeCasts_S1x1600000_S1600000
/-- Row 3 of a [4, N] float array: relation 3's per-node norms. -/
def rowF3 (N : FVec F S4x50000 .f32) : FVec F S50000 .f32 :=
  shapeCast _ (extractStridedSlice S1x50000 ![3, 0] N slices_S4x50000_S1x50000_3_0) shapeCasts_S1x50000_S50000

/-- Relation 0's projection, scaled row by row: columns 0·128 … 0·128+127 of the packed product, row n times the
    out-degree norm of node n in relation 0. -/
def hRel0 (H : FVec F S50000x512 .f32) (ON : FVec F S4x50000 .f32) : FVec F S50000x128 .f32 :=
  mulf (shapeCast _ (extractStridedSlice S50000x1x128 ![0, 0, 0] (shapeCast _ H shapeCasts_S50000x512_S50000x4x128) slices_S50000x4x128_S50000x1x128_0_0_0) shapeCasts_S50000x1x128_S50000x128)
    (broadcastInDim S50000x128 ![0, 1] bcast_S50000x1_S50000x128_0_1 (broadcastInDim S50000x1 ![0] bcast_S50000_S50000x1_0 (rowF0 ON)))

/-- Relation 1's projection, scaled row by row: columns 1·128 … 1·128+127 of the packed product, row n times the
    out-degree norm of node n in relation 1. -/
def hRel1 (H : FVec F S50000x512 .f32) (ON : FVec F S4x50000 .f32) : FVec F S50000x128 .f32 :=
  mulf (shapeCast _ (extractStridedSlice S50000x1x128 ![0, 1, 0] (shapeCast _ H shapeCasts_S50000x512_S50000x4x128) slices_S50000x4x128_S50000x1x128_0_1_0) shapeCasts_S50000x1x128_S50000x128)
    (broadcastInDim S50000x128 ![0, 1] bcast_S50000x1_S50000x128_0_1 (broadcastInDim S50000x1 ![0] bcast_S50000_S50000x1_0 (rowF1 ON)))

/-- Relation 2's projection, scaled row by row: columns 2·128 … 2·128+127 of the packed product, row n times the
    out-degree norm of node n in relation 2. -/
def hRel2 (H : FVec F S50000x512 .f32) (ON : FVec F S4x50000 .f32) : FVec F S50000x128 .f32 :=
  mulf (shapeCast _ (extractStridedSlice S50000x1x128 ![0, 2, 0] (shapeCast _ H shapeCasts_S50000x512_S50000x4x128) slices_S50000x4x128_S50000x1x128_0_2_0) shapeCasts_S50000x1x128_S50000x128)
    (broadcastInDim S50000x128 ![0, 1] bcast_S50000x1_S50000x128_0_1 (broadcastInDim S50000x1 ![0] bcast_S50000_S50000x1_0 (rowF2 ON)))

/-- Relation 3's projection, scaled row by row: columns 3·128 … 3·128+127 of the packed product, row n times the
    out-degree norm of node n in relation 3. -/
def hRel3 (H : FVec F S50000x512 .f32) (ON : FVec F S4x50000 .f32) : FVec F S50000x128 .f32 :=
  mulf (shapeCast _ (extractStridedSlice S50000x1x128 ![0, 3, 0] (shapeCast _ H shapeCasts_S50000x512_S50000x4x128) slices_S50000x4x128_S50000x1x128_0_3_0) shapeCasts_S50000x1x128_S50000x128)
    (broadcastInDim S50000x128 ![0, 1] bcast_S50000x1_S50000x128_0_1 (broadcastInDim S50000x1 ![0] bcast_S50000_S50000x1_0 (rowF3 ON)))

/-- One relation's message aggregation: row e of the gathered table is row src[e] of h (a negative id is first shifted
    up by 50000); the rows are added into row dst[e]; row n is then scaled by inn[n]. -/
def agg (h : FVec F S50000x128 .f32) (src dst : IVec S1600000 32) (inn : FVec F S50000 .f32) : FVec F S50000x128 .f32 :=
  mulf (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 dst)
      (Host.gather gather_S50000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src))))
    (broadcastInDim S50000x128 ![0, 1] bcast_S50000x1_S50000x128_0_1 (broadcastInDim S50000x1 ![0] bcast_S50000_S50000x1_0 inn))

/-- The kernel program's result from the packed product H and the edge table e. -/
def kres (H : FVec F S50000x512 .f32) (e : IVec S4x2x1600000 32) : FVec F S50000x128 .f32 :=
  addf (addf (addf (addf (broadcastInDim S50000x128 ![] bcast_S_S50000x128 (constant S_ .f32 0x00000000#32))
    (agg (hRel0 H (normAll (srcAll e))) (rowI0 (srcAll e)) (rowI0 (dstAll e)) (rowF0 (normAll (dstAll e)))))
    (agg (hRel1 H (normAll (srcAll e))) (rowI1 (srcAll e)) (rowI1 (dstAll e)) (rowF1 (normAll (dstAll e)))))
    (agg (hRel2 H (normAll (srcAll e))) (rowI2 (srcAll e)) (rowI2 (dstAll e)) (rowF2 (normAll (dstAll e)))))
    (agg (hRel3 H (normAll (srcAll e))) (rowI3 (srcAll e)) (rowI3 (dstAll e)) (rowF3 (normAll (dstAll e))))

end Cert.KernelIdeal.Stg

end
-- ==== Proof.HSpec.lean ====
/-
  The packed product as one function of the whole arrays: entry (n, c) is the sum over k of X[n, k] · Wp[k, c],
  on the extended reals.
-/
import Idealize.ShloMosaic.PureOps.Ideal
import Idealize.ShloMosaic.Lib.ValueIdx

noncomputable section

open scoped BigOperators

namespace Cert.HSpec

open Idealize.ShloMosaic Idealize.ShloMosaic.ValueIdx

/-- Entry (n, c) of X · Wp. -/
def Hfun (X : (⟨2, ![50000, 256]⟩ : Shape).Idx → EReal) (Wp : (⟨2, ![256, 512]⟩ : Shape).Idx → EReal) :
    (⟨2, ![50000, 512]⟩ : Shape).Idx → EReal :=
  fun i => ∑ k : Fin 256, X (ix2 (⟨(i 0).val, idx2_lt0 i⟩ : Fin 50000) k) * Wp (ix2 k (⟨(i 1).val, idx2_lt1 i⟩ : Fin 512))

end Cert.HSpec

end
-- ==== Proof.KernelEntry.lean ====
/-
  What the five stretches of host operations before the region have computed when the region is entered: the two
  endpoint tables, the two degree-norm tables and the packed weights, each as its named function of the arguments.
  Each stretch is read by itself from an arbitrary earlier state (which of its buffers it computes from which, and
  which it leaves alone); the five are then composed.
-/
import proofs.«416891_j20418274525632_3_alg».proof.Proof.KernelIdealFrame
import proofs.«416891_j20418274525632_3_alg».proof.Proof.KStages
import proofs.«416891_j20418274525632_3_alg».proof.Proof.HSpec
import Idealize.ShloMosaic.Lib.StableHlo.Run

set_option maxRecDepth 16384
-- one theorem at a time: each reads a stretch of host operations back
set_option Elab.async false

noncomputable section

namespace Cert.KernelIdeal.Entry

open Cert.KernelIdeal Cert.KernelIdeal.Gen Cert.KernelIdeal.Hand Cert.HSpec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Two stretches run one after the other. -/
theorem after_append {F : FTy → Type} [FloatOps F] (l₁ l₂ : List (HloOp τ sig (Elt F))) (Wv : Valuation τ sig (Elt F)) :
    after (l₁ ++ l₂) Wv = after l₂ (after l₁ Wv) := by
  induction l₁ generalizing Wv with
  | nil => rfl
  | cons op l ih => simp only [List.cons_append, after_cons, ih]

section Stretches

variable {F : FTy → Type} [FloatOps F] (Wv : Valuation τ sig (Elt F))

/-! ### The first stretch (35 operations): the endpoint tables and the two degree tables -/

set_option maxHeartbeats 4000000 in
theorem s0_v1 : after hostOps0 Wv (Proc.devRef .tc main_v1) = Stg.srcAll (Wv (Proc.devRef .tc main_arg2)) := by
  simp only [hostOps0]; after_results_simp; rfl
set_option maxHeartbeats 4000000 in
theorem s0_v3 : after hostOps0 Wv (Proc.devRef .tc main_v3) = Stg.dstAll (Wv (Proc.devRef .tc main_arg2)) := by
  simp only [hostOps0]; after_results_simp; rfl
set_option maxHeartbeats 4000000 in
theorem s0_v15 : after hostOps0 Wv (Proc.devRef .tc main_v15) = Stg.degAll (F := F) (Stg.srcAll (Wv (Proc.devRef .tc main_arg2))) := by
  simp only [hostOps0]; after_results_simp; unfold Stg.degAll Stg.flatIds Stg.srcAll; rfl
set_option maxHeartbeats 4000000 in
theorem s0_v27 : after hostOps0 Wv (Proc.devRef .tc main_v27) = Stg.degAll (F := F) (Stg.dstAll (Wv (Proc.devRef .tc main_arg2))) := by
  simp only [hostOps0]; after_results_simp; unfold Stg.degAll Stg.flatIds Stg.dstAll; rfl
set_option maxHeartbeats 4000000 in
theorem s0_cst4 : after hostOps0 Wv (Proc.devRef .tc main_cst_4) = constant S_ .f32 0x3F800000#32 := by
  simp only [hostOps0]; after_results_simp
set_option maxHeartbeats 4000000 in
theorem s0_arg1 : after hostOps0 Wv (Proc.devRef .tc main_arg1) = Wv (Proc.devRef .tc main_arg1) := by
  simp only [hostOps0]; after_results_simp

/-! ### The second stretch (3 operations): max(1, out-degree) -/

theorem s1_v28 : after hostOps0_1 Wv (Proc.devRef .tc main_v28)
    = maximumf (broadcastInDim S4x50000 ![] bcast_S_S4x50000 (id (Wv (Proc.devRef .tc main_cst_4)))) (Wv (Proc.devRef .tc main_v15)) := by
  simp only [hostOps0_1]; after_results_simp; rfl
theorem s1_v1 : after hostOps0_1 Wv (Proc.devRef .tc main_v1) = Wv (Proc.devRef .tc main_v1) := by simp only [hostOps0_1]; after_results_simp
theorem s1_v3 : after hostOps0_1 Wv (Proc.devRef .tc main_v3) = Wv (Proc.devRef .tc main_v3) := by simp only [hostOps0_1]; after_results_simp
theorem s1_v27 : after hostOps0_1 Wv (Proc.devRef .tc main_v27) = Wv (Proc.devRef .tc main_v27) := by simp only [hostOps0_1]; after_results_simp
theorem s1_arg1 : after hostOps0_1 Wv (Proc.devRef .tc main_arg1) = Wv (Proc.devRef .tc main_arg1) := by simp only [hostOps0_1]; after_results_simp

/-! ### The third stretch (4 operations): the out-degree norm -/

theorem s2_v30 : after hostOps0_2 Wv (Proc.devRef .tc main_v30)
    = Host.powf (Wv (Proc.devRef .tc main_v28)) (broadcastInDim S4x50000 ![] bcast_S_S4x50000 (constant S_ .f32 0xBF000000#32)) := by
  simp only [hostOps0_2]; after_results_simp
theorem s2_cst6 : after hostOps0_2 Wv (Proc.devRef .tc main_cst_6) = constant S_ .f32 0x3F800000#32 := by
  simp only [hostOps0_2]; after_results_simp
theorem s2_v1 : after hostOps0_2 Wv (Proc.devRef .tc main_v1) = Wv (Proc.devRef .tc main_v1) := by simp only [hostOps0_2]; after_results_simp
theorem s2_v3 : after hostOps0_2 Wv (Proc.devRef .tc main_v3) = Wv (Proc.devRef .tc main_v3) := by simp only [hostOps0_2]; after_results_simp
theorem s2_v27 : after hostOps0_2 Wv (Proc.devRef .tc main_v27) = Wv (Proc.devRef .tc main_v27) := by simp only [hostOps0_2]; after_results_simp
theorem s2_arg1 : after hostOps0_2 Wv (Proc.devRef .tc main_arg1) = Wv (Proc.devRef .tc main_arg1) := by simp only [hostOps0_2]; after_results_simp

/-! ### The fourth stretch (3 operations): max(1, in-degree) -/

theorem s3_v31 : after hostOps0_3 Wv (Proc.devRef .tc main_v31)
    = maximumf (broadcastInDim S4x50000 ![] bcast_S_S4x50000 (id (Wv (Proc.devRef .tc main_cst_6)))) (Wv (Proc.devRef .tc main_v27)) := by
  simp only [hostOps0_3]; after_results_simp; rfl
theorem s3_v1 : after hostOps0_3 Wv (Proc.devRef .tc main_v1) = Wv (Proc.devRef .tc main_v1) := by simp only [hostOps0_3]; after_results_simp
theorem s3_v3 : after hostOps0_3 Wv (Proc.devRef .tc main_v3) = Wv (Proc.devRef .tc main_v3) := by simp only [hostOps0_3]; after_results_simp
theorem s3_v30 : after hostOps0_3 Wv (Proc.devRef .tc main_v30) = Wv (Proc.devRef .tc main_v30) := by simp only [hostOps0_3]; after_results_simp
theorem s3_arg1 : after hostOps0_3 Wv (Proc.devRef .tc main_arg1) = Wv (Proc.devRef .tc main_arg1) := by simp only [hostOps0_3]; after_results_simp

/-! ### The fifth stretch (5 operations): the in-degree norm and the packed weights -/

theorem s4_v33 : after hostOps0_4 Wv (Proc.devRef .tc main_v33)
    = Host.powf (Wv (Proc.devRef .tc main_v31)) (broadcastInDim S4x50000 ![] bcast_S_S4x50000 (constant S_ .f32 0xBF000000#32)) := by
  simp only [hostOps0_4]; after_results_simp
theorem s4_v35 : after hostOps0_4 Wv (Proc.devRef .tc main_v35) = Stg.wPacked (F := F) (Wv (Proc.devRef .tc main_arg1)) := by
  simp only [hostOps0_4]; after_results_simp; rfl
theorem s4_v1 : after hostOps0_4 Wv (Proc.devRef .tc main_v1) = Wv (Proc.devRef .tc main_v1) := by simp only [hostOps0_4]; after_results_simp
theorem s4_v3 : after hostOps0_4 Wv (Proc.devRef .tc main_v3) = Wv (Proc.devRef .tc main_v3) := by simp only [hostOps0_4]; after_results_simp
theorem s4_v30 : after hostOps0_4 Wv (Proc.devRef .tc main_v30) = Wv (Proc.devRef .tc main_v30) := by simp only [hostOps0_4]; after_results_simp

end Stretches

/-- The state at the region's entry is the five stretches composed. -/
theorem V0_eq (c : Dev nD) : V0 m c
    = after hostOps0_4 (after hostOps0_3 (after hostOps0_2 (after hostOps0_1 (after hostOps0 (fun b => m (c, b)))))) := by
  dsimp only [V0]
  simp only [List.flatten_cons, List.flatten_nil, List.append_nil, after_append]

/-- All sources. -/
theorem V_main_v1 (c : Dev nD) : V m c main_v1 = Stg.srcAll (m ((c.tc : Thread nD τ).loc main_arg2)) := by
  show V0 m c (Proc.devRef .tc main_v1) = _
  rw [V0_eq, s4_v1, s3_v1, s2_v1, s1_v1, s0_v1]
/-- All destinations. -/
theorem V_main_v3 (c : Dev nD) : V m c main_v3 = Stg.dstAll (m ((c.tc : Thread nD τ).loc main_arg2)) := by
  show V0 m c (Proc.devRef .tc main_v3) = _
  rw [V0_eq, s4_v3, s3_v3, s2_v3, s1_v3, s0_v3]
/-- The out-degree norms, all relations. -/
theorem V_main_v30 (c : Dev nD) : V m c main_v30 = Stg.normAll (F := Ideal) (Stg.srcAll (m ((c.tc : Thread nD τ).loc main_arg2))) := by
  show V0 m c (Proc.devRef .tc main_v30) = _
  rw [V0_eq, s4_v30, s3_v30, s2_v30, s1_v28, s0_cst4, s0_v15]
  rfl
/-- The in-degree norms, all relations. -/
theorem V_main_v33 (c : Dev nD) : V m c main_v33 = Stg.normAll (F := Ideal) (Stg.dstAll (m ((c.tc : Thread nD τ).loc main_arg2))) := by
  show V0 m c (Proc.devRef .tc main_v33) = _
  rw [V0_eq, s4_v33, s3_v31, s2_cst6, s2_v27, s1_v27, s0_v27]
  rfl
/-- The packed weights. -/
theorem V_main_v35 (c : Dev nD) : V m c main_v35 = Stg.wPacked (F := Ideal) (m ((c.tc : Thread nD τ).loc main_arg1)) := by
  show V0 m c (Proc.devRef .tc main_v35) = _
  rw [V0_eq, s4_v35, s3_arg1, s2_arg1, s1_arg1, s0_arg1]

end Cert.KernelIdeal.Entry

end
-- ==== Proof.KernelFinal.lean ====
/-
  The region's result array is the packed product X · Wp: at grid point t the body stores, into rows
  2000·t … 2000·t+1999 of the result, the product of those rows of X with the whole of Wp (rounding the operands to a
  narrower format first, which is the identity on the extended reals; the accumulator starts at zero), and the 25 row
  blocks tile the 50000 rows.
-/
import proofs.«416891_j20418274525632_3_alg».proof.Proof.KernelIdealFrame
import proofs.«416891_j20418274525632_3_alg».proof.Proof.KernelEntry
import proofs.«416891_j20418274525632_3_alg».proof.Proof.KStages
import proofs.«416891_j20418274525632_3_alg».proof.Proof.HSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Final

open Cert.KernelIdeal Cert.KernelIdeal.Gen Cert.KernelIdeal.Hand Cert.HSpec
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-! ## The product at an index -/

/-- The left operand's row coordinate is the output's row. -/
theorem lhs_prod_0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
/-- The left operand's column coordinate is the summation index. -/
theorem lhs_prod_1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
/-- The right operand's row coordinate is the summation index. -/
theorem rhs_prod_0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
/-- The right operand's column coordinate is the output's column. -/
theorem rhs_prod_1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- Entry (p, q) of the body's product of a 2000×256 block with a 256×512 block: the sum over k of the entries'
    products. Rounding the operands to the narrower format is the identity on the extended reals, the reshape is of a
    shape to itself, and the accumulator is zero. -/
theorem pay_apply (x0 : Vec Ideal S2000x256 .f32) (x1 : Vec Ideal S256x512 .f32) (p : Fin 2000) (q : Fin 512) :
    k0_pay1 (F := Ideal) x0 x1 (ix2 p q) = ∑ k : Fin 256, x0 (ix2 p k) * x1 (ix2 k q) := by
  unfold Gen.k0_pay1
  rw [shapeCast_self]
  simp only [matmul]
  rw [Ideal.matmul_constant_zero_apply, ← Equiv.sum_comp (ValueIdx.contrEquiv1 dot_S2000x256_S256x512_S2000x512_1_0_0_1_n_n 256 rfl rfl).symm]
  refine Finset.sum_congr rfl fun k _ => ?_
  have hk := ValueIdx.contrEquiv1_symm_val dot_S2000x256_S256x512_S2000x512_1_0_0_1_n_n 256 rfl rfl k
  have el : dot_S2000x256_S256x512_S2000x512_1_0_0_1_n_n.lhsIdx (ix2 p q) ((ValueIdx.contrEquiv1 dot_S2000x256_S256x512_S2000x512_1_0_0_1_n_n 256 rfl rfl).symm k) = ix2 p k := funext fun a => Fin.ext (by
    match a with
    | ⟨0, _⟩ => exact lhs_prod_0 _ _
    | ⟨1, _⟩ => exact (lhs_prod_1 _ _).trans hk)
  have er : dot_S2000x256_S256x512_S2000x512_1_0_0_1_n_n.rhsIdx (ix2 p q) ((ValueIdx.contrEquiv1 dot_S2000x256_S256x512_S2000x512_1_0_0_1_n_n 256 rfl rfl).symm k) = ix2 k q := funext fun a => Fin.ext (by
    match a with
    | ⟨0, _⟩ => exact (rhs_prod_0 _ _).trans hk
    | ⟨1, _⟩ => exact rhs_prod_1 _ _)
  rw [el, er]
  rfl

/-! ## What a grid point writes back -/

theorem hz : (![0, 0] : Fin 2 → Nat) = fun _ => 0 := funext fun a => by fin_cases a <;> rfl

/-- The printed index maps over the grid: at point t the block of X and the block of the result are row block t,
    column block 0; the weights' block is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (n, q) of the packed product, at an index whose coordinates are n and q. -/
theorem Hfun_apply (X : (⟨2, ![50000, 256]⟩ : Shape).Idx → EReal) (Wp : (⟨2, ![256, 512]⟩ : Shape).Idx → EReal)
    (i : (⟨2, ![50000, 512]⟩ : Shape).Idx) (n : Fin 50000) (q : Fin 512) (h0 : (i 0).val = n.val) (h1 : (i 1).val = q.val) :
    Hfun X Wp i = ∑ k : Fin 256, X (ix2 n k) * Wp (ix2 k q) := by
  unfold Hfun
  have e0 : (⟨(i 0).val, idx2_lt0 i⟩ : Fin 50000) = n := Fin.ext h0
  have e1 : (⟨(i 1).val, idx2_lt1 i⟩ : Fin 512) = q := Fin.ext h1
  rw [e0, e1]

/-- The block of X at point t, read at y, is X at row 2000·t + y₀, column y₁. -/
theorem xblk_apply (c : Dev nD) (t : Fin cfg0.N) (y : S2000x256.Idx) (i : S50000x256.Idx)
    (h0 : (i 0).val = t.val * 2000 + (y 0).val) (h1 : (i 1).val = (y 1).val) :
    (iblk m c 0 t : Vec Ideal S2000x256 .f32) y = m ((c.tc : Thread nD τ).loc main_arg0) i := by
  obtain ⟨e0, e1, -⟩ := idx_facts t
  rw [← V_main_arg0 m c]
  show V m c main_arg0 (((cfg0.win 0).blk t).view.emb y) = V m c main_arg0 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 256 + 1 * (y 1).val = (i 1).val; omega

/-- The weights' block at every point is the whole packed weight array. -/
theorem wblk_apply (c : Dev nD) (t : Fin cfg0.N) (y : S256x512.Idx) :
    (iblk m c 1 t : Vec Ideal S256x512 .f32) y = Stg.wPacked (F := Ideal) (m ((c.tc : Thread nD τ).loc main_arg1)) y := by
  obtain ⟨-, -, e2, e3, -⟩ := idx_facts t
  rw [← Entry.V_main_v35 m c]
  show V m c main_v35 (((cfg0.win 1).blk t).view.emb y) = V m c main_v35 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- What point t writes back is block t of the packed product: rows 2000·t … 2000·t + 1999 of X times the packed weights. -/
theorem flushed_eq (c : Dev nD) (t : Fin cfg0.N) :
    (dats (F := Ideal) m 0 c).flushed 2 t = ((cfg0.win 2).blk t).view.read (Elt Ideal)
      (Hfun (m ((c.tc : Thread nD τ).loc main_arg0)) (Stg.wPacked (F := Ideal) (m ((c.tc : Thread nD τ).loc main_arg1)))) := by
  show (cfg0.win 2).cut (grid0.coords t) ((dats m 0 c).after 2 t) = _
  rw [after0_2]
  unfold out0_2
  rw [View.canon_unit_zero hz]
  simp only [View.ld_unit_zero (S := S2000x256) hz, View.ld_unit_zero (S := S256x512) hz]
  funext j
  have hN : cfg0.N = 25 := N_0
  have ht : t.val < cfg0.N := t.isLt
  have hp : (j 0).val < 2000 := (j 0).isLt
  have hq : (j 1).val < 512 := (j 1).isLt
  have hn : t.val * 2000 + (j 0).val < 50000 := by omega
  obtain ⟨-, -, -, -, e4, e5⟩ := idx_facts t
  have hj : (win0 2).xinj (grid0.coords t) j = ix2 (⟨(j 0).val, hp⟩ : Fin 2000) (⟨(j 1).val, hq⟩ : Fin 512) :=
    funext fun a => by match a with | ⟨0, _⟩ => rfl | ⟨1, _⟩ => rfl
  show k0_pay1 (F := Ideal) (iblk m c 0 t) (iblk m c 1 t) ((win0 2).xinj (grid0.coords t) j)
    = Hfun _ _ (((cfg0.win 2).blk t).view.emb j)
  rw [hj, pay_apply]
  refine Eq.trans ?_ (Hfun_apply _ _ _ (⟨t.val * 2000 + (j 0).val, hn⟩ : Fin 50000) (⟨(j 1).val, hq⟩ : Fin 512) ?_ ?_).symm
  · refine Finset.sum_congr rfl fun k _ => ?_
    rw [xblk_apply m c t (ix2 (⟨(j 0).val, hp⟩ : Fin 2000) k) (ix2 (⟨t.val * 2000 + (j 0).val, hn⟩ : Fin 50000) k) rfl rfl,
      wblk_apply m c t]
  · show win0_2.index t (0 : Fin 2) * 2000 + 1 * (j 0).val = t.val * 2000 + (j 0).val; omega
  · show win0_2.index t (1 : Fin 2) * 512 + 1 * (j 1).val = (j 1).val; omega

/-! ## From the blocks to the array -/

/-- An index of the result array is in point t's block iff each coordinate is in the block's range on its axis. -/
theorem mem_blk (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v36).slice (win0_2.rect t)).set ↔ _
  rw [View.set_slice_whole, Rect.mem_set_unit]
  exact Iff.rfl

/-- The 25 row blocks of 2000 rows tile the 50000 rows: row n is in the block of point n / 2000, and every point writes back. -/
theorem cover (i : S50000x512.Idx) : ∃ t : Fin cfg0.N, (cfg0.win 2).flush t = true ∧ i ∈ ((cfg0.win 2).blk t).view.set := by
  have hN : cfg0.N = 25 := N_0
  have hi0 : (i 0).val < 50000 := (i 0).isLt
  have hi1 : (i 1).val < 512 := (i 1).isLt
  obtain ⟨t, ht⟩ : ∃ t : Fin cfg0.N, t.val = (i 0).val / 2000 := ⟨⟨(i 0).val / 2000, by omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- The region's result array after the run is the packed product of the argument X with the packed weights. -/
theorem final (c : Dev nD) :
    (dats (F := Ideal) m 0 c).arrAt 2 cfg0.N
      = Hfun (m ((c.tc : Thread nD τ).loc main_arg0)) (Stg.wPacked (F := Ideal) (m ((c.tc : Thread nD τ).loc main_arg1))) :=
  (dats m 0 c).arrAt_eq_of_cover 2 (Hfun (m ((c.tc : Thread nD τ).loc main_arg0)) (Stg.wPacked (F := Ideal) (m ((c.tc : Thread nD τ).loc main_arg1))))
    (fun t _ => flushed_eq m c t) cover

end Cert.KernelIdeal.Final

end
-- ==== Proof.KernelValue.lean ====
/-
  What the idealized kernel program computes: the 123 host operations after the region turn the packed product, with
  the degree norms and endpoint tables computed before the region, into the sum over the four relations of the
  message aggregations; the arguments end as launched.
-/
import proofs.«416891_j20418274525632_3_alg».proof.Proof.KernelIdealFrame
import proofs.«416891_j20418274525632_3_alg».proof.Proof.KernelEntry
import proofs.«416891_j20418274525632_3_alg».proof.Proof.KernelFinal
import proofs.«416891_j20418274525632_3_alg».proof.Proof.KStages
import proofs.«416891_j20418274525632_3_alg».proof.Proof.HSpec
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Hand Cert.HSpec
open Idealize.ShloMosaic Idealize.ShloMosaic.TcCoe Idealize.ShloMosaic.ValueIdx Idealize.SL.Sem

section Generic

variable {F : FTy → Type} [FloatOps F]

/-- The host operations after the region as ONE function of the five arrays they read: the packed product, the
    out-degree and in-degree norm tables, the source and destination tables. The sum over the four relations of the
    aggregated, norm-scaled messages. -/
def tailFn (H : FVec F S50000x512 .f32) (on inn : FVec F S4x50000 .f32) (src dst : IVec S4x1600000 32) :
    FVec F S50000x128 .f32 :=
  addf (addf (addf (addf (broadcastInDim S50000x128 ![] bcast_S_S50000x128 (constant S_ .f32 0x00000000#32))
    (Stg.agg (Stg.hRel0 H on) (Stg.rowI0 src) (Stg.rowI0 dst) (Stg.rowF0 inn)))
    (Stg.agg (Stg.hRel1 H on) (Stg.rowI1 src) (Stg.rowI1 dst) (Stg.rowF1 inn)))
    (Stg.agg (Stg.hRel2 H on) (Stg.rowI2 src) (Stg.rowI2 dst) (Stg.rowF2 inn)))
    (Stg.agg (Stg.hRel3 H on) (Stg.rowI3 src) (Stg.rowI3 dst) (Stg.rowF3 inn))

/-- The kernel's result is the tail function at the norm tables and endpoint tables of the edge table. -/
theorem kres_eq_tailFn (H : FVec F S50000x512 .f32) (e : IVec S4x2x1600000 32) :
    Stg.kres H e = tailFn H (Stg.normAll (Stg.srcAll e)) (Stg.normAll (Stg.dstAll e)) (Stg.srcAll e) (Stg.dstAll e) := by
  unfold Stg.kres tailFn
  rfl

set_option maxHeartbeats 80000000 in
/-- From ANY buffer contents, the 123 operations leave in their last result buffer the tail function of the five
    buffers they read. -/
theorem tail_v146 (Wv : Valuation τ sig (Elt F)) :
    StableHlo.after (hostOps1 (F := F)) Wv (Proc.devRef .tc main_v146)
      = tailFn (F := F) (Wv (Proc.devRef .tc main_v36)) (Wv (Proc.devRef .tc main_v30)) (Wv (Proc.devRef .tc main_v33))
          (Wv (Proc.devRef .tc main_v1)) (Wv (Proc.devRef .tc main_v3)) := by
  after_results_simp
  all_goals (unfold tailFn Stg.agg Stg.hRel0 Stg.hRel1 Stg.hRel2 Stg.hRel3 Stg.rowI0 Stg.rowI1 Stg.rowI2 Stg.rowI3 Stg.rowF0 Stg.rowF1 Stg.rowF2 Stg.rowF3)
  all_goals rfl

/-- The same with the five buffers' contents named: if they hold the packed product, the two norm tables and the two
    endpoint tables of an edge table, the last result buffer holds the kernel's result. -/
theorem tail_value_of (Wv : Valuation τ sig (Elt F)) (H : FVec F S50000x512 .f32) (e : IVec S4x2x1600000 32)
    (h36 : Wv (Proc.devRef .tc main_v36) = H)
    (h30 : Wv (Proc.devRef .tc main_v30) = Stg.normAll (F := F) (Stg.srcAll e))
    (h33 : Wv (Proc.devRef .tc main_v33) = Stg.normAll (F := F) (Stg.dstAll e))
    (h1 : Wv (Proc.devRef .tc main_v1) = Stg.srcAll e)
    (h3 : Wv (Proc.devRef .tc main_v3) = Stg.dstAll e) :
    StableHlo.after (hostOps1 (F := F)) Wv (Proc.devRef .tc main_v146) = Stg.kres H e := by
  rw [tail_v146, h36, h30, h33, h1, h3, kres_eq_tailFn]

set_option maxHeartbeats 40000000 in
/-- None of the 123 operations writes the weights argument. -/
theorem tail_keeps_arg1 (Wv : Valuation τ sig (Elt F)) :
    StableHlo.after (hostOps1 (F := F)) Wv (Proc.devRef .tc main_arg1) = Wv (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- None of the 123 operations writes the edge-table argument. -/
theorem tail_keeps_arg2 (Wv : Valuation τ sig (Elt F)) :
    StableHlo.after (hostOps1 (F := F)) Wv (Proc.devRef .tc main_arg2) = Wv (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Generic

variable (m : (ℓ : Loc nD τ sig) → Buf (Elt Ideal) ℓ) (ρ : Dev nD → PrngReg)

/-- After the operations that follow the region, run from what the region leaves, the last result buffer holds the
    kernel's result of the arguments: the region's result array is the packed product, and the norm and endpoint tables
    are as the operations before the region computed them. -/
theorem tail_value (c : Dev nD) :
    Pipeline.afterTail₀ cfgs (dats (F := Ideal) m) 0 (V0 m) [hostOps1] c main_v146
      = Stg.kres (F := Ideal) (Hfun (m ((c.tc : Thread nD τ).loc main_arg0)) (Stg.wPacked (F := Ideal) (m ((c.tc : Thread nD τ).loc main_arg1))))
          (m ((c.tc : Thread nD τ).loc main_arg2)) := by
  unfold Pipeline.afterTail₀
  show StableHlo.after hostOps1 _ (Proc.devRef .tc main_v146) = _
  exact tail_value_of _ _ _
    ((Pipeline.withArrays_arr spec0 launch0.win.arr_inj c _ _ 2).trans (Final.final m c))
    ((Pipeline.withArrays_of_ne _ c (V0 m c) _ main_v30 (by decide : ∀ w, Pipeline.arrRef spec0 w ≠ main_v30)).trans (Entry.V_main_v30 m c))
    ((Pipeline.withArrays_of_ne _ c (V0 m c) _ main_v33 (by decide : ∀ w, Pipeline.arrRef spec0 w ≠ main_v33)).trans (Entry.V_main_v33 m c))
    ((Pipeline.withArrays_of_ne _ c (V0 m c) _ main_v1 (by decide : ∀ w, Pipeline.arrRef spec0 w ≠ main_v1)).trans (Entry.V_main_v1 m c))
    ((Pipeline.withArrays_of_ne _ c (V0 m c) _ main_v3 (by decide : ∀ w, Pipeline.arrRef spec0 w ≠ main_v3)).trans (Entry.V_main_v3 m c))

/-- The weights argument ends as launched: no operation after the region writes it, the region does not stage it, and no
    operation before the region writes it. -/
theorem tail_arg1 (c : Dev nD) :
    Pipeline.afterTail₀ cfgs (dats (F := Ideal) m) 0 (V0 m) [hostOps1] c main_arg1 = m ((c.tc : Thread nD τ).loc main_arg1) := by
  unfold Pipeline.afterTail₀
  show StableHlo.after hostOps1 _ (Proc.devRef .tc main_arg1) = _
  exact (tail_keeps_arg1 _).trans ((Pipeline.withArrays_of_ne _ c (V0 m c) _ main_arg1 (by decide : ∀ w, Pipeline.arrRef spec0 w ≠ main_arg1)).trans (V_main_arg1 m c))

/-- The edge-table argument ends as launched, likewise. -/
theorem tail_arg2 (c : Dev nD) :
    Pipeline.afterTail₀ cfgs (dats (F := Ideal) m) 0 (V0 m) [hostOps1] c main_arg2 = m ((c.tc : Thread nD τ).loc main_arg2) := by
  unfold Pipeline.afterTail₀
  show StableHlo.after hostOps1 _ (Proc.devRef .tc main_arg2) = _
  exact (tail_keeps_arg2 _).trans ((Pipeline.withArrays_of_ne _ c (V0 m c) _ main_arg2 (by decide : ∀ w, Pipeline.arrRef spec0 w ≠ main_arg2)).trans (V_main_arg2 m c))

/-- The idealized kernel program's run: it ends, its result is `kres` of the packed product and the edge table, and its
    arguments end as launched. -/
theorem kernel_run : θ_run (defs (F := Ideal)) (onTc (τ := τ) (main (F := Ideal))) ⟨m, fun _ => 0, ρ⟩ (fun r => ∀ c : Dev nD,
      r.2.mem ((c.tc : Thread nD τ).loc main_v146)
        = Stg.kres (F := Ideal) (Hfun (m ((c.tc : Thread nD τ).loc main_arg0)) (Stg.wPacked (F := Ideal) (m ((c.tc : Thread nD τ).loc main_arg1))))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v146 (Pipeline.mem_restRefs_of main_v146 (by decide) (by decide))).trans (tail_value m c),
     ((h c).1 0).trans (((dats (F := Ideal) m 0 c).arrAt_in 0 rfl _).trans ((A_eq m c 0).trans (V_main_arg0 m c))),
     ((h c).2 main_arg1 (Pipeline.mem_restRefs_of main_arg1 (by decide) (by decide))).trans (tail_arg1 m c),
     ((h c).2 main_arg2 (Pipeline.mem_restRefs_of main_arg2 (by decide) (by decide))).trans (tail_arg2 m c)⟩)
    (Hand.run_main (F := Ideal) m ρ)

end Cert.KernelIdeal.Val

end
-- ==== Proof.RStages.lean ====
/-
  The idealized reference's arithmetic as named array functions: per relation r the source and destination rows of
  the edge table, a degree count (one scatter-add of ones into 50000 bins), its norm max(1, deg)^(-1/2), the
  projection of the rows of X scaled by the out-degree norm, and the message aggregation (gather at the
  sources, scatter-add at the destinations, scale by the in-degree norm). The result is the sum over r.
-/
import proofs.«416891_j20418274525632_3_alg».proof.ReferenceIdeal
import proofs.«416891_j20418274525632_3_alg».proof.Proof.Gen.ReferenceIdeal

noncomputable section

namespace Cert.ReferenceIdeal.Stg

open Idealize.ShloMosaic Cert.ReferenceIdeal Cert.ReferenceIdeal.Gen

variable {F : FTy → Type} [FloatOps F]

/-- Relation 0's source nodes, edge by edge. -/
def src0 (e : IVec S4x2x1600000 32) : IVec S1600000 32 :=
  shapeCast _ (extractStridedSlice S1x1x1600000 ![0, 0, 0] e slices_S4x2x1600000_S1x1x1600000_0_0_0) shapeCasts_S1x1x1600000_S1600000
/-- Relation 0's destination nodes, edge by edge. -/
def dst0 (e : IVec S4x2x1600000 32) : IVec S1600000 32 :=
  shapeCast _ (extractStridedSlice S1x1x1600000 ![0, 1, 0] e slices_S4x2x1600000_S1x1x1600000_0_1_0) shapeCasts_S1x1x1600000_S1600000
/-- Relation 0's weight matrix. -/
def wRel0 (W : FVec F S4x256x128 .f32) : FVec F S256x128 .f32 :=
  shapeCast _ (extractStridedSlice S1x256x128 ![0, 0, 0] W slices_S4x256x128_S1x256x128_0_0_0) shapeCasts_S1x256x128_S256x128

/-- Relation 1's source nodes, edge by edge. -/
def src1 (e : IVec S4x2x1600000 32) : IVec S1600000 32 :=
  shapeCast _ (extractStridedSlice S1x1x1600000 ![1, 0, 0] e slices_S4x2x1600000_S1x1x1600000_1_0_0) shapeCasts_S1x1x1600000_S1600000
/-- Relation 1's destination nodes, edge by edge. -/
def dst1 (e : IVec S4x2x1600000 32) : IVec S1600000 32 :=
  shapeCast _ (extractStridedSlice S1x1x1600000 ![1, 1, 0] e slices_S4x2x1600000_S1x1x1600000_1_1_0) shapeCasts_S1x1x1600000_S1600000
/-- Relation 1's weight matrix. -/
def wRel1 (W : FVec F S4x256x128 .f32) : FVec F S256x128 .f32 :=
  shapeCast _ (extractStridedSlice S1x256x128 ![1, 0, 0] W slices_S4x256x128_S1x256x128_1_0_0) shapeCasts_S1x256x128_S256x128

/-- Relation 2's source nodes, edge by edge. -/
def src2 (e : IVec S4x2x1600000 32) : IVec S1600000 32 :=
  shapeCast _ (extractStridedSlice S1x1x1600000 ![2, 0, 0] e slices_S4x2x1600000_S1x1x1600000_2_0_0) shapeCasts_S1x1x1600000_S1600000
/-- Relation 2's destination nodes, edge by edge. -/
def dst2 (e : IVec S4x2x1600000 32) : IVec S1600000 32 :=
  shapeCast _ (extractStridedSlice S1x1x1600000 ![2, 1, 0] e slices_S4x2x1600000_S1x1x1600000_2_1_0) shapeCasts_S1x1x1600000_S1600000
/-- Relation 2's weight matrix. -/
def wRel2 (W : FVec F S4x256x128 .f32) : FVec F S256x128 .f32 :=
  shapeCast _ (extractStridedSlice S1x256x128 ![2, 0, 0] W slices_S4x256x128_S1x256x128_2_0_0) shapeCasts_S1x256x128_S256x128

/-- Relation 3's source nodes, edge by edge. -/
def src3 (e : IVec S4x2x1600000 32) : IVec S1600000 32 :=
  shapeCast _ (extractStridedSlice S1x1x1600000 ![3, 0, 0] e slices_S4x2x1600000_S1x1x1600000_3_0_0) shapeCasts_S1x1x1600000_S1600000
/-- Relation 3's destination nodes, edge by edge. -/
def dst3 (e : IVec S4x2x1600000 32) : IVec S1600000 32 :=
  shapeCast _ (extractStridedSlice S1x1x1600000 ![3, 1, 0] e slices_S4x2x1600000_S1x1x1600000_3_1_0) shapeCasts_S1x1x1600000_S1600000
/-- Relation 3's weight matrix. -/
def wRel3 (W : FVec F S4x256x128 .f32) : FVec F S256x128 .f32 :=
  shapeCast _ (extractStridedSlice S1x256x128 ![3, 0, 0] W slices_S4x256x128_S1x256x128_3_0_0) shapeCasts_S1x256x128_S256x128

/-- How many edges end at each node: ones scatter-added at the ids. -/
def deg (ix : IVec S1600000 32) : FVec F S50000 .f32 :=
  Host.scatterAdd scatter_S50000_S1600000x1_S1600000_n_0_0_1
    (broadcastInDim S50000 ![] bcast_S_S50000 (constant S_ .f32 0x00000000#32))
    (broadcastInDim S1600000x1 ![0] bcast_S1600000_S1600000x1_0 ix)
    (broadcastInDim S1600000 ![] bcast_S_S1600000 (constant S_ .f32 0x3F800000#32))

/-- max(1, degree)^(-1/2). -/
def norm (ix : IVec S1600000 32) : FVec F S50000 .f32 :=
  Host.powf (maximumf (broadcastInDim S50000 ![] bcast_S_S50000 (id (constant S_ .f32 0x3F800000#32))) (deg ix))
    (broadcastInDim S50000 ![] bcast_S_S50000 (constant S_ .f32 0xBF000000#32))

/-- (X with row n scaled by on[n]) times Wr. -/
def hRel (X : FVec F S50000x256 .f32) (Wr : FVec F S256x128 .f32) (on : FVec F S50000 .f32) : FVec F S50000x128 .f32 :=
  Host.dotGeneral dot_S50000x256_S256x128_S50000x128_1_0_0_1_n_n none
    (mulf X (broadcastInDim S50000x256 ![0, 1] bcast_S50000x1_S50000x256_0_1 (broadcastInDim S50000x1 ![0] bcast_S50000_S50000x1_0 on))) Wr

/-- One relation's message aggregation: row e of the gathered table is row src[e] of h (a negative id is first shifted
    up by 50000); the rows are added into row dst[e]; row n is then scaled by inn[n]. -/
def agg (h : FVec F S50000x128 .f32) (src dst : IVec S1600000 32) (inn : FVec F S50000 .f32) : FVec F S50000x128 .f32 :=
  mulf (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 dst)
      (Host.gather gather_S50000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src))))
    (broadcastInDim S50000x128 ![0, 1] bcast_S50000x1_S50000x128_0_1 (broadcastInDim S50000x1 ![0] bcast_S50000_S50000x1_0 inn))

/-- The reference program's result from its three arguments. -/
def rres (X : FVec F S50000x256 .f32) (W : FVec F S4x256x128 .f32) (e : IVec S4x2x1600000 32) : FVec F S50000x128 .f32 :=
  addf (addf (addf (addf (broadcastInDim S50000x128 ![] bcast_S_S50000x128 (constant S_ .f32 0x00000000#32))
    (agg (hRel X (wRel0 W) (norm (src0 e))) (src0 e) (dst0 e) (norm (dst0 e))))
    (agg (hRel X (wRel1 W) (norm (src1 e))) (src1 e) (dst1 e) (norm (dst1 e))))
    (agg (hRel X (wRel2 W) (norm (src2 e))) (src2 e) (dst2 e) (norm (dst2 e))))
    (agg (hRel X (wRel3 W) (norm (src3 e))) (src3 e) (dst3 e) (norm (dst3 e)))

end Cert.ReferenceIdeal.Stg

end
-- ==== Proof.RefValue.lean ====
/-
  What the idealized reference computes: its run's composed result term is the sum over the four relations of the
  message aggregations of the projections of the degree-scaled X (the named functions of the arguments), and its
  arguments end as launched.
-/
import proofs.«416891_j20418274525632_3_alg».proof.Proof.RStages
import proofs.«416891_j20418274525632_3_alg».proof.Proof.Gen.ReferenceIdeal.Run
import Idealize.ShloMosaic.PureOps.Ideal

noncomputable section

namespace Cert.ReferenceIdeal.Val

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

set_option maxRecDepth 8192 in
set_option maxHeartbeats 4000000 in
/-- The run's result term, operation by operation, is the named functions composed. -/
theorem res_is_rres (c : Dev nD) :
    Value.res_main_v148 (F := Ideal) m c
      = Stg.rres (F := Ideal) (m ((c.tc : Thread nD τ).loc main_arg0)) (m ((c.tc : Thread nD τ).loc main_arg1))
          (m ((c.tc : Thread nD τ).loc main_arg2)) := by
  unfold Value.res_main_v148 Stg.rres Stg.agg Stg.hRel Stg.norm Stg.deg
    Stg.src0 Stg.src1 Stg.src2 Stg.src3 Stg.dst0 Stg.dst1 Stg.dst2 Stg.dst3 Stg.wRel0 Stg.wRel1 Stg.wRel2 Stg.wRel3
  rfl

/-- The idealized reference's run: it ends, its result is `rres` of the arguments, and the arguments end as launched. -/
theorem ref_run : θ_run (defs (F := Ideal)) (onTc (τ := τ) (main (F := Ideal))) ⟨m, fun _ => 0, ρ⟩ (fun r => ∀ c : Dev nD,
      r.2.mem ((c.tc : Thread nD τ).loc main_v148)
        = Stg.rres (F := Ideal) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (res_is_rres m c), (h c).2⟩) (Value.run (F := Ideal) m ρ)

end Cert.ReferenceIdeal.Val

end
-- ==== Proof.PreDecode.lean ====
/-
  What the precondition says, entry by entry: every entry of X and of W is a real number (its absolute value is
  below +infinity), and every entry of the edge table is a node id, 0 ≤ id < 50000 (as signed 32-bit integers).
-/
import proofs.«416891_j20418274525632_3_alg».proof.Pre_finite_inputs
import proofs.«416891_j20418274525632_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs Cert.Pre_finite_inputs.Gen

/-- The scalar shape has one index. -/
instance : Subsingleton S_.Idx := ⟨fun a b => funext fun d => d.elim0⟩

/-- The pattern 0x7F800000 denotes +infinity. -/
theorem inf_bits : Ideal.ofBits .f32 0x7F800000#32 = (⊤ : EReal) := by simp [Ideal.ofBits, Ideal.ieee]

/-- An extended real whose absolute value max x (-x) is below +infinity is a real number. -/
theorem real_of_abs_lt_top (x : EReal) (hx : max x (-x) < (⊤ : EReal)) : ∃ r : ℝ, x = (r : EReal) := by
  induction x using EReal.rec with
  | bot => simp at hx
  | coe r => exact ⟨r, rfl⟩
  | top => simp at hx

/-- The printed element test |x| < +infinity, passed, says x is a real number. -/
theorem real_of_test (x : Ideal .f32)
    (hx : FloatOps.cmpf (F := Ideal) .olt (FloatOps.hostAbsf x) (FloatOps.ofBits .f32 0x7F800000#32) = 1#1) :
    ∃ r : ℝ, x = (r : EReal) := by
  have h1 : Ideal.cmp .olt (max x (-x)) (Ideal.ofBits .f32 0x7F800000#32) = 1#1 := hx
  rw [inf_bits] at h1
  unfold Ideal.cmp at h1
  rw [StableHlo.Predicate.ofBool_eq_one_iff] at h1
  exact real_of_abs_lt_top x (of_decide_eq_true h1)

/-- The printed element test 0 ≤ w ∧ w < 50000 on a signed 32-bit word, passed. -/
theorem range_of_test (w : BitVec 32)
    (hw : IntOp.andi (IntOp.cmpi .sge w 0#32) (IntOp.cmpi .slt w 50000#32) = 1#1) :
    0 ≤ w.toInt ∧ w.toInt < 50000 := by
  obtain ⟨h0, h1⟩ := IntOp.andi_eq_one.1 hw
  rw [IntOp.cmpi_sge] at h0
  rw [IntOp.cmpi_slt] at h1
  have e0 : (0#32 : BitVec 32).toInt = 0 := by decide
  have e1 : (50000#32 : BitVec 32).toInt = 50000 := by decide
  rw [e0] at h0; rw [e1] at h1
  exact ⟨h0, h1⟩

/-- The printed precondition, all ones, decoded. -/
theorem decode (X : FVec Ideal S50000x256 .f32) (W : FVec Ideal S4x256x128 .f32) (e : IVec S4x2x1600000 32)
    (h : Cert.Pre_finite_inputs.fn (F := Ideal) X W e = fun _ => 1#1) :
    (∀ i, ∃ x : ℝ, X i = (x : EReal)) ∧ (∀ i, ∃ x : ℝ, W i = (x : EReal))
      ∧ (∀ y, 0 ≤ (e y).toInt ∧ (e y).toInt < 50000) := by
  have h0 := congrFun h ValueIdx.ix0
  unfold Cert.Pre_finite_inputs.fn at h0
  dsimp only at h0
  obtain ⟨hXW, hE⟩ := IntOp.andi_eq_one.1 h0
  obtain ⟨hX, hW⟩ := IntOp.andi_eq_one.1 hXW
  refine ⟨fun i => ?_, fun i => ?_, fun y => ?_⟩
  · exact real_of_test (X i) (Host.reduce_andi_all _ _ _ _ _ hX i)
  · exact real_of_test (W i) (Host.reduce_andi_all _ _ _ _ _ hW i)
  · exact range_of_test (e y) (Host.reduce_andi_all _ _ _ _ _ hE y)

end Cert.PreDecode

end
-- ==== Proof.Rows.lean ====
/-
  The endpoint rows. Both programs cut the edge table e : [4, 2, E] into rows: the kernel first into the table of all
  sources (entry (r, t) is e[r, 0, t]) and all destinations (e[r, 1, t]) and then takes row r of each; the reference
  takes e[r, 0, :] and e[r, 1, :] directly. Read at an index they are the same entry of e, so the rows are equal,
  and every entry of the two tables is an entry of e (so a range of e's entries is a range of theirs).
  Also here: row r of a [4, 50000] table read at a node.
-/
import proofs.«416891_j20418274525632_3_alg».proof.Proof.KStages
import proofs.«416891_j20418274525632_3_alg».proof.Proof.RStages
import Idealize.ShloMosaic.Lib.Pipeline.Value
import Idealize.ShloMosaic.Lib.ValueIdx

noncomputable section

namespace Cert.Rows

open Idealize.ShloMosaic Idealize.ShloMosaic.ValueIdx

variable {F : FTy → Type} [FloatOps F]

/-! ## The kernel's tables and rows, read at an index -/

/-- Entry (r, t) of the table of all sources is e[r, 0, t]. -/
theorem srcAll_apply (e : IVec Cert.KernelIdeal.S4x2x1600000 32) (r : Fin 4) (t : Fin 1600000) :
    Cert.KernelIdeal.Stg.srcAll e (ix2 r t) = e (ix3 r (0 : Fin 2) t) := by
  unfold Cert.KernelIdeal.Stg.srcAll
  rw [shapeCast_apply _ Cert.KernelIdeal.Gen.shapeCasts_S4x1x1600000_S4x1600000 (ix2 r t) (ix3 r (0 : Fin 1) t)
    (by rewrite [Shape.rowMajor_val_three, Shape.rowMajor_val_two]; show (r.val * 1 + 0) * 1600000 + t.val = r.val * 1600000 + t.val; omega)]
  exact extractStridedSlice_apply ![0, 0, 0] e Cert.KernelIdeal.Gen.slices_S4x2x1600000_S4x1x1600000_0_0_0 (ix3 r (0 : Fin 1) t) (ix3 r (0 : Fin 2) t)
    (fun a => match a with
      | ⟨0, _⟩ => by show r.val = 0 + r.val; omega
      | ⟨1, _⟩ => by show (0 : ℕ) = 0 + 0; rfl
      | ⟨2, _⟩ => by show t.val = 0 + t.val; omega)

/-- Entry (r, t) of the table of all destinations is e[r, 1, t]. -/
theorem dstAll_apply (e : IVec Cert.KernelIdeal.S4x2x1600000 32) (r : Fin 4) (t : Fin 1600000) :
    Cert.KernelIdeal.Stg.dstAll e (ix2 r t) = e (ix3 r (1 : Fin 2) t) := by
  unfold Cert.KernelIdeal.Stg.dstAll
  rw [shapeCast_apply _ Cert.KernelIdeal.Gen.shapeCasts_S4x1x1600000_S4x1600000 (ix2 r t) (ix3 r (0 : Fin 1) t)
    (by rewrite [Shape.rowMajor_val_three, Shape.rowMajor_val_two]; show (r.val * 1 + 0) * 1600000 + t.val = r.val * 1600000 + t.val; omega)]
  exact extractStridedSlice_apply ![0, 1, 0] e Cert.KernelIdeal.Gen.slices_S4x2x1600000_S4x1x1600000_0_1_0 (ix3 r (0 : Fin 1) t) (ix3 r (1 : Fin 2) t)
    (fun a => match a with
      | ⟨0, _⟩ => by show r.val = 0 + r.val; omega
      | ⟨1, _⟩ => by show (1 : ℕ) = 1 + 0; rfl
      | ⟨2, _⟩ => by show t.val = 0 + t.val; omega)

/-- Row 0 of a [4, E] integer table at t is its entry (0, t). -/
theorem rowI0_apply (ix : IVec Cert.KernelIdeal.S4x1600000 32) (t : Fin 1600000) :
    Cert.KernelIdeal.Stg.rowI0 ix (ix1 t) = ix (ix2 (0 : Fin 4) t) := by
  unfold Cert.KernelIdeal.Stg.rowI0
  rw [shapeCast_apply _ Cert.KernelIdeal.Gen.shapeCasts_S1x1600000_S1600000 (ix1 t) (ix2 (0 : Fin 1) t)
    (by rewrite [Shape.rowMajor_val_two, Shape.rowMajor_val_one]; show 0 * 1600000 + t.val = t.val; omega)]
  exact extractStridedSlice_apply ![0, 0] ix Cert.KernelIdeal.Gen.slices_S4x1600000_S1x1600000_0_0 (ix2 (0 : Fin 1) t) (ix2 (0 : Fin 4) t)
    (fun a => match a with
      | ⟨0, _⟩ => by show (0 : ℕ) = 0 + 0; rfl
      | ⟨1, _⟩ => by show t.val = 0 + t.val; omega)

/-- Row 0 of a [4, N] float table at v is its entry (0, v). -/
theorem rowF0_apply (N : FVec F Cert.KernelIdeal.S4x50000 .f32) (v : Fin 50000) :
    Cert.KernelIdeal.Stg.rowF0 N (ix1 v) = N (ix2 (0 : Fin 4) v) := by
  unfold Cert.KernelIdeal.Stg.rowF0
  rw [shapeCast_apply _ Cert.KernelIdeal.Gen.shapeCasts_S1x50000_S50000 (ix1 v) (ix2 (0 : Fin 1) v)
    (by rewrite [Shape.rowMajor_val_two, Shape.rowMajor_val_one]; show 0 * 50000 + v.val = v.val; omega)]
  exact extractStridedSlice_apply ![0, 0] N Cert.KernelIdeal.Gen.slices_S4x50000_S1x50000_0_0 (ix2 (0 : Fin 1) v) (ix2 (0 : Fin 4) v)
    (fun a => match a with
      | ⟨0, _⟩ => by show (0 : ℕ) = 0 + 0; rfl
      | ⟨1, _⟩ => by show v.val = 0 + v.val; omega)

/-- Row 1 of a [4, E] integer table at t is its entry (1, t). -/
theorem rowI1_apply (ix : IVec Cert.KernelIdeal.S4x1600000 32) (t : Fin 1600000) :
    Cert.KernelIdeal.Stg.rowI1 ix (ix1 t) = ix (ix2 (1 : Fin 4) t) := by
  unfold Cert.KernelIdeal.Stg.rowI1
  rw [shapeCast_apply _ Cert.KernelIdeal.Gen.shapeCasts_S1x1600000_S1600000 (ix1 t) (ix2 (0 : Fin 1) t)
    (by rewrite [Shape.rowMajor_val_two, Shape.rowMajor_val_one]; show 0 * 1600000 + t.val = t.val; omega)]
  exact extractStridedSlice_apply ![1, 0] ix Cert.KernelIdeal.Gen.slices_S4x1600000_S1x1600000_1_0 (ix2 (0 : Fin 1) t) (ix2 (1 : Fin 4) t)
    (fun a => match a with
      | ⟨0, _⟩ => by show (1 : ℕ) = 1 + 0; rfl
      | ⟨1, _⟩ => by show t.val = 0 + t.val; omega)

/-- Row 1 of a [4, N] float table at v is its entry (1, v). -/
theorem rowF1_apply (N : FVec F Cert.KernelIdeal.S4x50000 .f32) (v : Fin 50000) :
    Cert.KernelIdeal.Stg.rowF1 N (ix1 v) = N (ix2 (1 : Fin 4) v) := by
  unfold Cert.KernelIdeal.Stg.rowF1
  rw [shapeCast_apply _ Cert.KernelIdeal.Gen.shapeCasts_S1x50000_S50000 (ix1 v) (ix2 (0 : Fin 1) v)
    (by rewrite [Shape.rowMajor_val_two, Shape.rowMajor_val_one]; show 0 * 50000 + v.val = v.val; omega)]
  exact extractStridedSlice_apply ![1, 0] N Cert.KernelIdeal.Gen.slices_S4x50000_S1x50000_1_0 (ix2 (0 : Fin 1) v) (ix2 (1 : Fin 4) v)
    (fun a => match a with
      | ⟨0, _⟩ => by show (1 : ℕ) = 1 + 0; rfl
      | ⟨1, _⟩ => by show v.val = 0 + v.val; omega)

/-- Row 2 of a [4, E] integer table at t is its entry (2, t). -/
theorem rowI2_apply (ix : IVec Cert.KernelIdeal.S4x1600000 32) (t : Fin 1600000) :
    Cert.KernelIdeal.Stg.rowI2 ix (ix1 t) = ix (ix2 (2 : Fin 4) t) := by
  unfold Cert.KernelIdeal.Stg.rowI2
  rw [shapeCast_apply _ Cert.KernelIdeal.Gen.shapeCasts_S1x1600000_S1600000 (ix1 t) (ix2 (0 : Fin 1) t)
    (by rewrite [Shape.rowMajor_val_two, Shape.rowMajor_val_one]; show 0 * 1600000 + t.val = t.val; omega)]
  exact extractStridedSlice_apply ![2, 0] ix Cert.KernelIdeal.Gen.slices_S4x1600000_S1x1600000_2_0 (ix2 (0 : Fin 1) t) (ix2 (2 : Fin 4) t)
    (fun a => match a with
      | ⟨0, _⟩ => by show (2 : ℕ) = 2 + 0; rfl
      | ⟨1, _⟩ => by show t.val = 0 + t.val; omega)

/-- Row 2 of a [4, N] float table at v is its entry (2, v). -/
theorem rowF2_apply (N : FVec F Cert.KernelIdeal.S4x50000 .f32) (v : Fin 50000) :
    Cert.KernelIdeal.Stg.rowF2 N (ix1 v) = N (ix2 (2 : Fin 4) v) := by
  unfold Cert.KernelIdeal.Stg.rowF2
  rw [shapeCast_apply _ Cert.KernelIdeal.Gen.shapeCasts_S1x50000_S50000 (ix1 v) (ix2 (0 : Fin 1) v)
    (by rewrite [Shape.rowMajor_val_two, Shape.rowMajor_val_one]; show 0 * 50000 + v.val = v.val; omega)]
  exact extractStridedSlice_apply ![2, 0] N Cert.KernelIdeal.Gen.slices_S4x50000_S1x50000_2_0 (ix2 (0 : Fin 1) v) (ix2 (2 : Fin 4) v)
    (fun a => match a with
      | ⟨0, _⟩ => by show (2 : ℕ) = 2 + 0; rfl
      | ⟨1, _⟩ => by show v.val = 0 + v.val; omega)

/-- Row 3 of a [4, E] integer table at t is its entry (3, t). -/
theorem rowI3_apply (ix : IVec Cert.KernelIdeal.S4x1600000 32) (t : Fin 1600000) :
    Cert.KernelIdeal.Stg.rowI3 ix (ix1 t) = ix (ix2 (3 : Fin 4) t) := by
  unfold Cert.KernelIdeal.Stg.rowI3
  rw [shapeCast_apply _ Cert.KernelIdeal.Gen.shapeCasts_S1x1600000_S1600000 (ix1 t) (ix2 (0 : Fin 1) t)
    (by rewrite [Shape.rowMajor_val_two, Shape.rowMajor_val_one]; show 0 * 1600000 + t.val = t.val; omega)]
  exact extractStridedSlice_apply ![3, 0] ix Cert.KernelIdeal.Gen.slices_S4x1600000_S1x1600000_3_0 (ix2 (0 : Fin 1) t) (ix2 (3 : Fin 4) t)
    (fun a => match a with
      | ⟨0, _⟩ => by show (3 : ℕ) = 3 + 0; rfl
      | ⟨1, _⟩ => by show t.val = 0 + t.val; omega)

/-- Row 3 of a [4, N] float table at v is its entry (3, v). -/
theorem rowF3_apply (N : FVec F Cert.KernelIdeal.S4x50000 .f32) (v : Fin 50000) :
    Cert.KernelIdeal.Stg.rowF3 N (ix1 v) = N (ix2 (3 : Fin 4) v) := by
  unfold Cert.KernelIdeal.Stg.rowF3
  rw [shapeCast_apply _ Cert.KernelIdeal.Gen.shapeCasts_S1x50000_S50000 (ix1 v) (ix2 (0 : Fin 1) v)
    (by rewrite [Shape.rowMajor_val_two, Shape.rowMajor_val_one]; show 0 * 50000 + v.val = v.val; omega)]
  exact extractStridedSlice_apply ![3, 0] N Cert.KernelIdeal.Gen.slices_S4x50000_S1x50000_3_0 (ix2 (0 : Fin 1) v) (ix2 (3 : Fin 4) v)
    (fun a => match a with
      | ⟨0, _⟩ => by show (3 : ℕ) = 3 + 0; rfl
      | ⟨1, _⟩ => by show v.val = 0 + v.val; omega)

/-! ## The reference's rows, read at an index -/

/-- The reference's sources of relation 0 at t: e[0, 0, t]. -/
theorem src0_apply (e : IVec Cert.ReferenceIdeal.S4x2x1600000 32) (t : Fin 1600000) :
    Cert.ReferenceIdeal.Stg.src0 e (ix1 t) = e (ix3 (0 : Fin 4) (0 : Fin 2) t) := by
  unfold Cert.ReferenceIdeal.Stg.src0
  rw [shapeCast_apply _ Cert.ReferenceIdeal.Gen.shapeCasts_S1x1x1600000_S1600000 (ix1 t) (ix3 (0 : Fin 1) (0 : Fin 1) t)
    (by rewrite [Shape.rowMajor_val_three, Shape.rowMajor_val_one]; show (0 * 1 + 0) * 1600000 + t.val = t.val; omega)]
  exact extractStridedSlice_apply ![0, 0, 0] e Cert.ReferenceIdeal.Gen.slices_S4x2x1600000_S1x1x1600000_0_0_0 (ix3 (0 : Fin 1) (0 : Fin 1) t) (ix3 (0 : Fin 4) (0 : Fin 2) t)
    (fun a => match a with
      | ⟨0, _⟩ => by show (0 : ℕ) = 0 + 0; rfl
      | ⟨1, _⟩ => by show (0 : ℕ) = 0 + 0; rfl
      | ⟨2, _⟩ => by show t.val = 0 + t.val; omega)

/-- The reference's destinations of relation 0 at t: e[0, 1, t]. -/
theorem dst0_apply (e : IVec Cert.ReferenceIdeal.S4x2x1600000 32) (t : Fin 1600000) :
    Cert.ReferenceIdeal.Stg.dst0 e (ix1 t) = e (ix3 (0 : Fin 4) (1 : Fin 2) t) := by
  unfold Cert.ReferenceIdeal.Stg.dst0
  rw [shapeCast_apply _ Cert.ReferenceIdeal.Gen.shapeCasts_S1x1x1600000_S1600000 (ix1 t) (ix3 (0 : Fin 1) (0 : Fin 1) t)
    (by rewrite [Shape.rowMajor_val_three, Shape.rowMajor_val_one]; show (0 * 1 + 0) * 1600000 + t.val = t.val; omega)]
  exact extractStridedSlice_apply ![0, 1, 0] e Cert.ReferenceIdeal.Gen.slices_S4x2x1600000_S1x1x1600000_0_1_0 (ix3 (0 : Fin 1) (0 : Fin 1) t) (ix3 (0 : Fin 4) (1 : Fin 2) t)
    (fun a => match a with
      | ⟨0, _⟩ => by show (0 : ℕ) = 0 + 0; rfl
      | ⟨1, _⟩ => by show (1 : ℕ) = 1 + 0; rfl
      | ⟨2, _⟩ => by show t.val = 0 + t.val; omega)

/-- The reference's sources of relation 1 at t: e[1, 0, t]. -/
theorem src1_apply (e : IVec Cert.ReferenceIdeal.S4x2x1600000 32) (t : Fin 1600000) :
    Cert.ReferenceIdeal.Stg.src1 e (ix1 t) = e (ix3 (1 : Fin 4) (0 : Fin 2) t) := by
  unfold Cert.ReferenceIdeal.Stg.src1
  rw [shapeCast_apply _ Cert.ReferenceIdeal.Gen.shapeCasts_S1x1x1600000_S1600000 (ix1 t) (ix3 (0 : Fin 1) (0 : Fin 1) t)
    (by rewrite [Shape.rowMajor_val_three, Shape.rowMajor_val_one]; show (0 * 1 + 0) * 1600000 + t.val = t.val; omega)]
  exact extractStridedSlice_apply ![1, 0, 0] e Cert.ReferenceIdeal.Gen.slices_S4x2x1600000_S1x1x1600000_1_0_0 (ix3 (0 : Fin 1) (0 : Fin 1) t) (ix3 (1 : Fin 4) (0 : Fin 2) t)
    (fun a => match a with
      | ⟨0, _⟩ => by show (1 : ℕ) = 1 + 0; rfl
      | ⟨1, _⟩ => by show (0 : ℕ) = 0 + 0; rfl
      | ⟨2, _⟩ => by show t.val = 0 + t.val; omega)

/-- The reference's destinations of relation 1 at t: e[1, 1, t]. -/
theorem dst1_apply (e : IVec Cert.ReferenceIdeal.S4x2x1600000 32) (t : Fin 1600000) :
    Cert.ReferenceIdeal.Stg.dst1 e (ix1 t) = e (ix3 (1 : Fin 4) (1 : Fin 2) t) := by
  unfold Cert.ReferenceIdeal.Stg.dst1
  rw [shapeCast_apply _ Cert.ReferenceIdeal.Gen.shapeCasts_S1x1x1600000_S1600000 (ix1 t) (ix3 (0 : Fin 1) (0 : Fin 1) t)
    (by rewrite [Shape.rowMajor_val_three, Shape.rowMajor_val_one]; show (0 * 1 + 0) * 1600000 + t.val = t.val; omega)]
  exact extractStridedSlice_apply ![1, 1, 0] e Cert.ReferenceIdeal.Gen.slices_S4x2x1600000_S1x1x1600000_1_1_0 (ix3 (0 : Fin 1) (0 : Fin 1) t) (ix3 (1 : Fin 4) (1 : Fin 2) t)
    (fun a => match a with
      | ⟨0, _⟩ => by show (1 : ℕ) = 1 + 0; rfl
      | ⟨1, _⟩ => by show (1 : ℕ) = 1 + 0; rfl
      | ⟨2, _⟩ => by show t.val = 0 + t.val; omega)

/-- The reference's sources of relation 2 at t: e[2, 0, t]. -/
theorem src2_apply (e : IVec Cert.ReferenceIdeal.S4x2x1600000 32) (t : Fin 1600000) :
    Cert.ReferenceIdeal.Stg.src2 e (ix1 t) = e (ix3 (2 : Fin 4) (0 : Fin 2) t) := by
  unfold Cert.ReferenceIdeal.Stg.src2
  rw [shapeCast_apply _ Cert.ReferenceIdeal.Gen.shapeCasts_S1x1x1600000_S1600000 (ix1 t) (ix3 (0 : Fin 1) (0 : Fin 1) t)
    (by rewrite [Shape.rowMajor_val_three, Shape.rowMajor_val_one]; show (0 * 1 + 0) * 1600000 + t.val = t.val; omega)]
  exact extractStridedSlice_apply ![2, 0, 0] e Cert.ReferenceIdeal.Gen.slices_S4x2x1600000_S1x1x1600000_2_0_0 (ix3 (0 : Fin 1) (0 : Fin 1) t) (ix3 (2 : Fin 4) (0 : Fin 2) t)
    (fun a => match a with
      | ⟨0, _⟩ => by show (2 : ℕ) = 2 + 0; rfl
      | ⟨1, _⟩ => by show (0 : ℕ) = 0 + 0; rfl
      | ⟨2, _⟩ => by show t.val = 0 + t.val; omega)

/-- The reference's destinations of relation 2 at t: e[2, 1, t]. -/
theorem dst2_apply (e : IVec Cert.ReferenceIdeal.S4x2x1600000 32) (t : Fin 1600000) :
    Cert.ReferenceIdeal.Stg.dst2 e (ix1 t) = e (ix3 (2 : Fin 4) (1 : Fin 2) t) := by
  unfold Cert.ReferenceIdeal.Stg.dst2
  rw [shapeCast_apply _ Cert.ReferenceIdeal.Gen.shapeCasts_S1x1x1600000_S1600000 (ix1 t) (ix3 (0 : Fin 1) (0 : Fin 1) t)
    (by rewrite [Shape.rowMajor_val_three, Shape.rowMajor_val_one]; show (0 * 1 + 0) * 1600000 + t.val = t.val; omega)]
  exact extractStridedSlice_apply ![2, 1, 0] e Cert.ReferenceIdeal.Gen.slices_S4x2x1600000_S1x1x1600000_2_1_0 (ix3 (0 : Fin 1) (0 : Fin 1) t) (ix3 (2 : Fin 4) (1 : Fin 2) t)
    (fun a => match a with
      | ⟨0, _⟩ => by show (2 : ℕ) = 2 + 0; rfl
      | ⟨1, _⟩ => by show (1 : ℕ) = 1 + 0; rfl
      | ⟨2, _⟩ => by show t.val = 0 + t.val; omega)

/-- The reference's sources of relation 3 at t: e[3, 0, t]. -/
theorem src3_apply (e : IVec Cert.ReferenceIdeal.S4x2x1600000 32) (t : Fin 1600000) :
    Cert.ReferenceIdeal.Stg.src3 e (ix1 t) = e (ix3 (3 : Fin 4) (0 : Fin 2) t) := by
  unfold Cert.ReferenceIdeal.Stg.src3
  rw [shapeCast_apply _ Cert.ReferenceIdeal.Gen.shapeCasts_S1x1x1600000_S1600000 (ix1 t) (ix3 (0 : Fin 1) (0 : Fin 1) t)
    (by rewrite [Shape.rowMajor_val_three, Shape.rowMajor_val_one]; show (0 * 1 + 0) * 1600000 + t.val = t.val; omega)]
  exact extractStridedSlice_apply ![3, 0, 0] e Cert.ReferenceIdeal.Gen.slices_S4x2x1600000_S1x1x1600000_3_0_0 (ix3 (0 : Fin 1) (0 : Fin 1) t) (ix3 (3 : Fin 4) (0 : Fin 2) t)
    (fun a => match a with
      | ⟨0, _⟩ => by show (3 : ℕ) = 3 + 0; rfl
      | ⟨1, _⟩ => by show (0 : ℕ) = 0 + 0; rfl
      | ⟨2, _⟩ => by show t.val = 0 + t.val; omega)

/-- The reference's destinations of relation 3 at t: e[3, 1, t]. -/
theorem dst3_apply (e : IVec Cert.ReferenceIdeal.S4x2x1600000 32) (t : Fin 1600000) :
    Cert.ReferenceIdeal.Stg.dst3 e (ix1 t) = e (ix3 (3 : Fin 4) (1 : Fin 2) t) := by
  unfold Cert.ReferenceIdeal.Stg.dst3
  rw [shapeCast_apply _ Cert.ReferenceIdeal.Gen.shapeCasts_S1x1x1600000_S1600000 (ix1 t) (ix3 (0 : Fin 1) (0 : Fin 1) t)
    (by rewrite [Shape.rowMajor_val_three, Shape.rowMajor_val_one]; show (0 * 1 + 0) * 1600000 + t.val = t.val; omega)]
  exact extractStridedSlice_apply ![3, 1, 0] e Cert.ReferenceIdeal.Gen.slices_S4x2x1600000_S1x1x1600000_3_1_0 (ix3 (0 : Fin 1) (0 : Fin 1) t) (ix3 (3 : Fin 4) (1 : Fin 2) t)
    (fun a => match a with
      | ⟨0, _⟩ => by show (3 : ℕ) = 3 + 0; rfl
      | ⟨1, _⟩ => by show (1 : ℕ) = 1 + 0; rfl
      | ⟨2, _⟩ => by show t.val = 0 + t.val; omega)

/-! ## The rows are the same -/

/-- Relation 0: the kernel's source row is the reference's. -/
theorem rowI0_srcAll (e : IVec Cert.KernelIdeal.S4x2x1600000 32) : Cert.KernelIdeal.Stg.rowI0 (Cert.KernelIdeal.Stg.srcAll e) = Cert.ReferenceIdeal.Stg.src0 e := by
  funext y
  obtain ⟨t, rfl⟩ : ∃ t : Fin 1600000, y = ix1 t := ⟨y 0, eq_ix1 y⟩
  rw [rowI0_apply, srcAll_apply, src0_apply]
/-- Relation 0: the kernel's destination row is the reference's. -/
theorem rowI0_dstAll (e : IVec Cert.KernelIdeal.S4x2x1600000 32) : Cert.KernelIdeal.Stg.rowI0 (Cert.KernelIdeal.Stg.dstAll e) = Cert.ReferenceIdeal.Stg.dst0 e := by
  funext y
  obtain ⟨t, rfl⟩ : ∃ t : Fin 1600000, y = ix1 t := ⟨y 0, eq_ix1 y⟩
  rw [rowI0_apply, dstAll_apply, dst0_apply]

/-- Relation 1: the kernel's source row is the reference's. -/
theorem rowI1_srcAll (e : IVec Cert.KernelIdeal.S4x2x1600000 32) : Cert.KernelIdeal.Stg.rowI1 (Cert.KernelIdeal.Stg.srcAll e) = Cert.ReferenceIdeal.Stg.src1 e := by
  funext y
  obtain ⟨t, rfl⟩ : ∃ t : Fin 1600000, y = ix1 t := ⟨y 0, eq_ix1 y⟩
  rw [rowI1_apply, srcAll_apply, src1_apply]
/-- Relation 1: the kernel's destination row is the reference's. -/
theorem rowI1_dstAll (e : IVec Cert.KernelIdeal.S4x2x1600000 32) : Cert.KernelIdeal.Stg.rowI1 (Cert.KernelIdeal.Stg.dstAll e) = Cert.ReferenceIdeal.Stg.dst1 e := by
  funext y
  obtain ⟨t, rfl⟩ : ∃ t : Fin 1600000, y = ix1 t := ⟨y 0, eq_ix1 y⟩
  rw [rowI1_apply, dstAll_apply, dst1_apply]

/-- Relation 2: the kernel's source row is the reference's. -/
theorem rowI2_srcAll (e : IVec Cert.KernelIdeal.S4x2x1600000 32) : Cert.KernelIdeal.Stg.rowI2 (Cert.KernelIdeal.Stg.srcAll e) = Cert.ReferenceIdeal.Stg.src2 e := by
  funext y
  obtain ⟨t, rfl⟩ : ∃ t : Fin 1600000, y = ix1 t := ⟨y 0, eq_ix1 y⟩
  rw [rowI2_apply, srcAll_apply, src2_apply]
/-- Relation 2: the kernel's destination row is the reference's. -/
theorem rowI2_dstAll (e : IVec Cert.KernelIdeal.S4x2x1600000 32) : Cert.KernelIdeal.Stg.rowI2 (Cert.KernelIdeal.Stg.dstAll e) = Cert.ReferenceIdeal.Stg.dst2 e := by
  funext y
  obtain ⟨t, rfl⟩ : ∃ t : Fin 1600000, y = ix1 t := ⟨y 0, eq_ix1 y⟩
  rw [rowI2_apply, dstAll_apply, dst2_apply]

/-- Relation 3: the kernel's source row is the reference's. -/
theorem rowI3_srcAll (e : IVec Cert.KernelIdeal.S4x2x1600000 32) : Cert.KernelIdeal.Stg.rowI3 (Cert.KernelIdeal.Stg.srcAll e) = Cert.ReferenceIdeal.Stg.src3 e := by
  funext y
  obtain ⟨t, rfl⟩ : ∃ t : Fin 1600000, y = ix1 t := ⟨y 0, eq_ix1 y⟩
  rw [rowI3_apply, srcAll_apply, src3_apply]
/-- Relation 3: the kernel's destination row is the reference's. -/
theorem rowI3_dstAll (e : IVec Cert.KernelIdeal.S4x2x1600000 32) : Cert.KernelIdeal.Stg.rowI3 (Cert.KernelIdeal.Stg.dstAll e) = Cert.ReferenceIdeal.Stg.dst3 e := by
  funext y
  obtain ⟨t, rfl⟩ : ∃ t : Fin 1600000, y = ix1 t := ⟨y 0, eq_ix1 y⟩
  rw [rowI3_apply, dstAll_apply, dst3_apply]

/-! ## A range of the edge table's entries is a range of the two tables' -/

theorem srcAll_range (e : IVec Cert.KernelIdeal.S4x2x1600000 32) (he : ∀ y, 0 ≤ (e y).toInt ∧ (e y).toInt < 50000) :
    ∀ y, 0 ≤ (Cert.KernelIdeal.Stg.srcAll e y).toInt ∧ (Cert.KernelIdeal.Stg.srcAll e y).toInt < 50000 := by
  intro y
  obtain ⟨r, t, rfl⟩ : ∃ (r : Fin 4) (t : Fin 1600000), y = ix2 r t := ⟨y 0, y 1, eq_ix2 y⟩
  rw [srcAll_apply]
  exact he _
theorem dstAll_range (e : IVec Cert.KernelIdeal.S4x2x1600000 32) (he : ∀ y, 0 ≤ (e y).toInt ∧ (e y).toInt < 50000) :
    ∀ y, 0 ≤ (Cert.KernelIdeal.Stg.dstAll e y).toInt ∧ (Cert.KernelIdeal.Stg.dstAll e y).toInt < 50000 := by
  intro y
  obtain ⟨r, t, rfl⟩ : ∃ (r : Fin 4) (t : Fin 1600000), y = ix2 r t := ⟨y 0, y 1, eq_ix2 y⟩
  rw [dstAll_apply]
  exact he _

end Cert.Rows

end
-- ==== Proof.LibScatterAddFlat.lean ====
/-
  The accumulating scatter of a flat operand: operand [N], start indices [n, 1], updates [n], no window axis, the
  operand's one axis inserted and named by the one component of the index vector. Update j lands on bin i exactly
  when its start index, read signed, equals i; an index outside [0, N) lands nowhere. So the scatter-add read at bin
  i is the operand there plus the sum of the updates whose index is i.
-/
import Idealize.ShloMosaic.PureOps.Ideal
import Idealize.ShloMosaic.Lib.ValueIdx

noncomputable section

open scoped BigOperators

namespace Cert.LibScatterAddFlat

open Idealize.ShloMosaic Idealize.ShloMosaic.ValueIdx

/-- A rank-1 index set is its one coordinate's. -/
def idxEquiv1 {n : Nat} : (⟨1, ![n]⟩ : Shape).Idx ≃ Fin n where
  toFun j := j 0
  invFun a := ix1 a
  left_inv j := (eq_ix1 j).symm
  right_inv a := rfl

/-- A sum over a rank-1 index set is the sum over the coordinate. -/
theorem sum_idx1 {M : Type*} [AddCommMonoid M] {n : Nat} (f : (⟨1, ![n]⟩ : Shape).Idx → M)
    (p : (⟨1, ![n]⟩ : Shape).Idx → Prop) [DecidablePred p] :
    ∑ j ∈ Finset.univ.filter p, f j = ∑ a ∈ Finset.univ.filter (fun a : Fin n => p (ix1 a)), f (ix1 a) := by
  refine Finset.sum_equiv (idxEquiv1 (n := n)) ?_ ?_
  · intro j
    simp only [Finset.mem_filter, Finset.mem_univ, true_and]
    rw [show ix1 (idxEquiv1 j) = j from (eq_ix1 j).symm]
  · intro j _
    rw [show ix1 (idxEquiv1 j) = j from (eq_ix1 j).symm]

/-- The dimension numbers of a scatter into a flat operand, one scalar update per start index. -/
abbrev flatDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- The window of update j starts at its start index, read signed. -/
theorem flat_start {N n w : Nat} (wf : ScatterDims.WF ⟨1, ![N]⟩ ⟨2, ![n, 1]⟩ ⟨1, ![n]⟩ [] [0] [0] 1)
    (j : Fin n) (idx : IVec ⟨2, ![n, 1]⟩ w) (a : Fin 1) :
    (flatDims N n wf).start (ix1 j) idx a = (idx (ix2 j (0 : Fin 1))).toInt := by
  obtain rfl : a = 0 := Subsingleton.elim _ _
  unfold ScatterDims.start
  rw [dif_pos (show (0 : Fin 1) ∈ (flatDims N n wf).scatterDimsToOperandDims from List.mem_singleton.mpr rfl)]
  have hsi : (flatDims N n wf).siIdx (ix1 j) ⟨List.idxOf (0 : Fin 1) (flatDims N n wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- There is no window axis: the window coordinate is 0. -/
theorem flat_window {N n : Nat} (wf : ScatterDims.WF ⟨1, ![N]⟩ ⟨2, ![n, 1]⟩ ⟨1, ![n]⟩ [] [0] [0] 1)
    (j : Fin n) (a : Fin 1) : (flatDims N n wf).window (ix1 j) a = 0 := by
  obtain rfl : a = 0 := Subsingleton.elim _ _
  unfold ScatterDims.window
  rw [dif_neg]
  simp [ScatterDims.sKept, Shape.kept, List.mem_filter, List.mem_finRange]

/-- Update j lands on bin i exactly when its start index, read signed, is i. -/
theorem flat_resultIdx?_eq_some_iff {N n w : Nat} (wf : ScatterDims.WF ⟨1, ![N]⟩ ⟨2, ![n, 1]⟩ ⟨1, ![n]⟩ [] [0] [0] 1)
    (j : Fin n) (idx : IVec ⟨2, ![n, 1]⟩ w) (i : Fin N) :
    (flatDims N n wf).resultIdx? (ix1 j) idx = some (ix1 i) ↔ (idx (ix2 j (0 : Fin 1))).toInt = (i.val : ℤ) := by
  unfold ScatterDims.resultIdx?
  have hs : ∀ a : Fin 1, (flatDims N n wf).start (ix1 j) idx a + ((flatDims N n wf).window (ix1 j) a : ℤ)
      = (idx (ix2 j (0 : Fin 1))).toInt := by
    intro a; rw [flat_start, flat_window]; simp
  constructor
  · intro h
    split at h
    · rename_i hall
      have h0 := congrFun (Option.some.inj h) 0
      have hv := congrArg Fin.val h0
      simp only at hv
      have := hall 0
      rw [hs] at this hv
      change ((idx (ix2 j (0 : Fin 1))).toInt.toNat) = i.val at hv
      omega
    · exact absurd h (by simp)
  · intro h
    have hall : ∀ a, 0 ≤ (flatDims N n wf).start (ix1 j) idx a + ((flatDims N n wf).window (ix1 j) a : ℤ) ∧
        (flatDims N n wf).start (ix1 j) idx a + ((flatDims N n wf).window (ix1 j) a : ℤ) < ((⟨1, ![N]⟩ : Shape).size a : ℤ) := by
      intro a
      obtain rfl : a = 0 := Subsingleton.elim _ _
      rw [hs, h]
      have := i.isLt
      constructor
      · omega
      · change (i.val : ℤ) < (N : ℤ); omega
    rw [dif_pos hall]
    congr 1
    funext a
    obtain rfl : a = 0 := Subsingleton.elim _ _
    refine Fin.ext ?_
    change ((flatDims N n wf).start (ix1 j) idx 0 + ((flatDims N n wf).window (ix1 j) 0 : ℤ)).toNat = i.val
    rw [hs, h]; simp

/-- THE FLAT SCATTER-ADD READ AT BIN i: the operand there plus the sum of the updates whose start index is i. -/
theorem scatterAdd_flat_apply {N n w : Nat} {φ : FTy} (wf : ScatterDims.WF ⟨1, ![N]⟩ ⟨2, ![n, 1]⟩ ⟨1, ![n]⟩ [] [0] [0] 1)
    (x : FVec Ideal ⟨1, ![N]⟩ φ) (idx : IVec ⟨2, ![n, 1]⟩ w) (upd : FVec Ideal ⟨1, ![n]⟩ φ) (i : Fin N) :
    Host.scatterAdd (flatDims N n wf) x idx upd (ix1 i)
      = x (ix1 i) + ∑ j ∈ Finset.univ.filter (fun j : Fin n => (idx (ix2 j (0 : Fin 1))).toInt = (i.val : ℤ)), upd (ix1 j) := by
  unfold Host.scatterAdd
  rw [Ideal.hostScatterAdd_def]
  unfold Ideal.hostScatterAdd
  congr 1
  rw [sum_idx1]
  refine Finset.sum_congr ?_ (fun _ _ => rfl)
  ext j
  simp only [Finset.mem_filter, Finset.mem_univ, true_and]
  exact flat_resultIdx?_eq_some_iff wf j idx i

end Cert.LibScatterAddFlat

end
-- ==== Proof.Norms.lean ====
/-
  The kernel counts all four relations' degrees in ONE scatter-add of ones over node ids shifted by relation·50000
  into 4·50000 bins; the reference counts each relation's in its own scatter-add into 50000 bins. When every id is a
  node id (0 ≤ id < 50000) the bins of relation r receive exactly relation r's ids, so bin r·50000 + v of the one
  count is bin v of relation r's count, and the norms max(1, ·)^(-1/2) of equal counts are equal. Every norm is a
  real number: a count is a finite sum of ones, at least 1 after the maximum.
-/
import proofs.«416891_j20418274525632_3_alg».proof.Proof.KStages
import proofs.«416891_j20418274525632_3_alg».proof.Proof.RStages
import proofs.«416891_j20418274525632_3_alg».proof.Proof.LibScatterAddFlat
import proofs.«416891_j20418274525632_3_alg».proof.Proof.Rows
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.Norms

open Idealize.ShloMosaic Idealize.ShloMosaic.ValueIdx Cert.LibScatterAddFlat

/-! ## The ids -/

/-- A node id shifted by relation·50000 does not wrap: read signed, it is the id plus relation·50000. -/
theorem toInt_shift (a : BitVec 32) (r : Fin 4) (h0 : 0 ≤ a.toInt) (h1 : a.toInt < 50000) :
    (IntOp.addi a (IntOp.muli (BitVec.ofNat 32 r.val) 50000#32)).toInt = a.toInt + (r.val : ℤ) * 50000 := by
  have hr := r.isLt
  have ha := a.isLt
  unfold IntOp.addi IntOp.muli
  rw [BitVec.toInt_eq_toNat_cond] at h0 h1 ⊢
  rw [BitVec.toInt_eq_toNat_cond]
  rw [BitVec.toNat_add, BitVec.toNat_mul, BitVec.toNat_ofNat]
  have h5 : (50000#32 : BitVec 32).toNat = 50000 := rfl
  rw [h5]
  split at h0 <;> split at h1 <;> split <;> omega

/-- The flat id list at position relation·1600000 + e is relation's id of edge e, shifted by relation·50000. -/
theorem flatIds_apply (ix : IVec Cert.KernelIdeal.S4x1600000 32) (r : Fin 4) (e : Fin 1600000) (k : Fin 6400000)
    (hk : k.val = r.val * 1600000 + e.val) :
    Cert.KernelIdeal.Stg.flatIds ix (ix1 k)
      = IntOp.addi (ix (ix2 r e)) (IntOp.muli (BitVec.ofNat 32 r.val) 50000#32) := by
  unfold Cert.KernelIdeal.Stg.flatIds
  refine (shapeCast_apply _ _ (ix1 k) (ix2 r e) ?_).trans ?_
  · rw [Shape.rowMajor_val_two, Shape.rowMajor_val_one]
    show r.val * 1600000 + e.val = k.val
    omega
  · rfl

/-! ## The two counts as filtered sums -/

/-- A column of start indices made from a list reads the list. -/
theorem bcast_col_apply {n w : Nat} (h : (⟨1, ![n]⟩ : Shape).BroadcastsInDim ⟨2, ![n, 1]⟩ ![0])
    (x : IVec ⟨1, ![n]⟩ w) (j : Fin n) : broadcastInDim ⟨2, ![n, 1]⟩ ![0] h x (ix2 j (0 : Fin 1)) = x (ix1 j) :=
  broadcastInDim_apply _ h x _ _ (fun a => by
    have hj := j.isLt
    match a with
    | ⟨0, _⟩ =>
      show j.val = if n = 1 then 0 else j.val
      split <;> omega)

/-- The kernel's count at (relation, v): zero plus one for every flat position whose shifted id is relation·50000 + v. -/
theorem degAll_apply (ix : IVec Cert.KernelIdeal.S4x1600000 32) (r : Fin 4) (v : Fin 50000) (b : Fin 200000)
    (hb : b.val = r.val * 50000 + v.val) :
    Cert.KernelIdeal.Stg.degAll (F := Ideal) ix (ix2 r v)
      = Ideal.ofBits .f32 0x00000000#32
        + ∑ j ∈ Finset.univ.filter (fun j : Fin 6400000 => (Cert.KernelIdeal.Stg.flatIds ix (ix1 j)).toInt = (b.val : ℤ)),
            Ideal.ofBits .f32 0x3F800000#32 := by
  unfold Cert.KernelIdeal.Stg.degAll
  refine (shapeCast_apply _ _ (ix2 r v) (ix1 b) ?_).trans ?_
  · rw [Shape.rowMajor_val_two, Shape.rowMajor_val_one]
    show b.val = r.val * 50000 + v.val
    exact hb
  · refine (scatterAdd_flat_apply (N := 200000) (n := 6400000)
      (Cert.KernelIdeal.scatter_S200000_S6400000x1_S6400000_n_0_0_1).wf _ _ _ b).trans ?_
    refine congrArg (Ideal.ofBits .f32 0x00000000#32 + ·) ?_
    refine Finset.sum_congr (Finset.filter_congr (fun j _ => ?_)) (fun _ _ => rfl)
    rw [bcast_col_apply]

/-- The reference's count at v: zero plus one for every edge whose id is v. -/
theorem deg_apply (row : IVec Cert.ReferenceIdeal.S1600000 32) (v : Fin 50000) :
    Cert.ReferenceIdeal.Stg.deg (F := Ideal) row (ix1 v)
      = Ideal.ofBits .f32 0x00000000#32
        + ∑ e ∈ Finset.univ.filter (fun e : Fin 1600000 => (row (ix1 e)).toInt = (v.val : ℤ)),
            Ideal.ofBits .f32 0x3F800000#32 := by
  unfold Cert.ReferenceIdeal.Stg.deg
  refine (scatterAdd_flat_apply (N := 50000) (n := 1600000)
    (Cert.ReferenceIdeal.scatter_S50000_S1600000x1_S1600000_n_0_0_1).wf _ _ _ v).trans ?_
  refine congrArg (Ideal.ofBits .f32 0x00000000#32 + ·) ?_
  refine Finset.sum_congr (Finset.filter_congr (fun e _ => ?_)) (fun _ _ => rfl)
  rw [bcast_col_apply]

/-! ## The count: bin relation·50000 + v of the one scatter-add is bin v of relation's own -/

/-- The positions of the flat list that land in bin relation·50000 + v are relation's edges whose id is v. -/
theorem degAll_eq_deg (ix : IVec Cert.KernelIdeal.S4x1600000 32) (hin : ∀ y, 0 ≤ (ix y).toInt ∧ (ix y).toInt < 50000)
    (r : Fin 4) (row : IVec Cert.ReferenceIdeal.S1600000 32) (hrow : ∀ e : Fin 1600000, row (ix1 e) = ix (ix2 r e))
    (v : Fin 50000) :
    Cert.KernelIdeal.Stg.degAll (F := Ideal) ix (ix2 r v) = Cert.ReferenceIdeal.Stg.deg (F := Ideal) row (ix1 v) := by
  have hr := r.isLt
  have hv := v.isLt
  rw [degAll_apply ix r v ⟨r.val * 50000 + v.val, by omega⟩ rfl, deg_apply row v]
  refine congrArg (Ideal.ofBits .f32 0x00000000#32 + ·) ?_
  -- the id at a flat position, read signed, by the position's relation and edge
  have hid : ∀ k : Fin 6400000, (Cert.KernelIdeal.Stg.flatIds ix (ix1 k)).toInt
      = (ix (ix2 (⟨k.val / 1600000, by have := k.isLt; omega⟩ : Fin 4) (⟨k.val % 1600000, by omega⟩ : Fin 1600000))).toInt
        + ((k.val / 1600000 : ℕ) : ℤ) * 50000 := by
    intro k
    have hk := k.isLt
    rw [flatIds_apply ix ⟨k.val / 1600000, by omega⟩ ⟨k.val % 1600000, by omega⟩ k (by show k.val = k.val / 1600000 * 1600000 + k.val % 1600000; omega)]
    exact toInt_shift _ _ (hin _).1 (hin _).2
  refine Finset.sum_nbij' (fun k : Fin 6400000 => (⟨k.val % 1600000, by omega⟩ : Fin 1600000))
    (fun e : Fin 1600000 => (⟨r.val * 1600000 + e.val, by have := e.isLt; omega⟩ : Fin 6400000)) ?_ ?_ ?_ ?_ (fun _ _ => rfl)
  · intro k hk
    have hk' := k.isLt
    simp only [Finset.mem_filter, Finset.mem_univ, true_and] at hk ⊢
    rw [hid k] at hk
    have h := hin (ix2 (⟨k.val / 1600000, by omega⟩ : Fin 4) (⟨k.val % 1600000, by omega⟩ : Fin 1600000))
    have hq : k.val / 1600000 = r.val := by
      show _ = _
      push_cast at hk
      omega
    rw [hrow]
    have hrr : (⟨k.val / 1600000, by omega⟩ : Fin 4) = r := Fin.ext hq
    rw [hrr] at hk
    push_cast at hk
    omega
  · intro e he
    have he' := e.isLt
    simp only [Finset.mem_filter, Finset.mem_univ, true_and] at he ⊢
    rw [hrow] at he
    rw [flatIds_apply ix r e _ rfl, toInt_shift _ _ (hin _).1 (hin _).2, he]
    push_cast
    ring
  · intro k hk
    have hk' := k.isLt
    simp only [Finset.mem_filter, Finset.mem_univ, true_and] at hk
    rw [hid k] at hk
    have h := hin (ix2 (⟨k.val / 1600000, by omega⟩ : Fin 4) (⟨k.val % 1600000, by omega⟩ : Fin 1600000))
    refine Fin.ext ?_
    show r.val * 1600000 + k.val % 1600000 = k.val
    push_cast at hk
    omega
  · intro e he
    have he' := e.isLt
    refine Fin.ext ?_
    show (r.val * 1600000 + e.val) % 1600000 = e.val
    omega

/-! ## Equal counts give equal norms -/

/-- The host's power at an index is the power of the elements. -/
theorem hostPowf_apply {s : Shape} {φ : FTy} (a b : FVec Ideal s φ) (i : s.Idx) :
    Host.powf a b i = Ideal.pow (a i) (b i) := rfl

/-- The kernel's norm at (relation, v) is the reference's norm at v of any list that reads relation's row of ids:
    the maximum with one and the power are taken element by element, on equal counts, and a broadcast scalar reads
    the same word wherever it is read. -/
theorem normAll_row (ix : IVec Cert.KernelIdeal.S4x1600000 32) (hin : ∀ y, 0 ≤ (ix y).toInt ∧ (ix y).toInt < 50000)
    (r : Fin 4) (row : IVec Cert.ReferenceIdeal.S1600000 32) (hrow : ∀ e : Fin 1600000, row (ix1 e) = ix (ix2 r e))
    (v : Fin 50000) :
    Cert.KernelIdeal.Stg.normAll (F := Ideal) ix (ix2 r v) = Cert.ReferenceIdeal.Stg.norm (F := Ideal) row (ix1 v) := by
  unfold Cert.KernelIdeal.Stg.normAll Cert.ReferenceIdeal.Stg.norm
  rw [hostPowf_apply, hostPowf_apply, maximumf_apply, maximumf_apply, degAll_eq_deg ix hin r row hrow v]
  have e1 := broadcastInDim_scalar_apply Cert.KernelIdeal.Gen.bcast_S_S4x50000 (id (constant (F := Ideal) Cert.KernelIdeal.S_ .f32 0x3F800000#32)) (ix2 r v)
  have e2 := broadcastInDim_scalar_apply Cert.KernelIdeal.Gen.bcast_S_S4x50000 (constant (F := Ideal) Cert.KernelIdeal.S_ .f32 0xBF000000#32) (ix2 r v)
  have e3 := broadcastInDim_scalar_apply Cert.ReferenceIdeal.Gen.bcast_S_S50000 (id (constant (F := Ideal) Cert.ReferenceIdeal.S_ .f32 0x3F800000#32)) (ix1 v)
  have e4 := broadcastInDim_scalar_apply Cert.ReferenceIdeal.Gen.bcast_S_S50000 (constant (F := Ideal) Cert.ReferenceIdeal.S_ .f32 0xBF000000#32) (ix1 v)
  rw [e1, e2, e3, e4]

/-- Relation 0's row of the kernel's norm table is the reference's norm of relation 0's ids. -/
theorem rowF0_normAll (ix : IVec Cert.KernelIdeal.S4x1600000 32) (hin : ∀ y, 0 ≤ (ix y).toInt ∧ (ix y).toInt < 50000) :
    Cert.KernelIdeal.Stg.rowF0 (Cert.KernelIdeal.Stg.normAll (F := Ideal) ix) = Cert.ReferenceIdeal.Stg.norm (F := Ideal) (Cert.KernelIdeal.Stg.rowI0 ix) := by
  funext y
  obtain ⟨v, rfl⟩ : ∃ v : Fin 50000, y = ix1 v := ⟨y 0, eq_ix1 y⟩
  rw [Cert.Rows.rowF0_apply]
  exact normAll_row ix hin (0 : Fin 4) _ (Cert.Rows.rowI0_apply ix) v

/-- Relation 1's row of the kernel's norm table is the reference's norm of relation 1's ids. -/
theorem rowF1_normAll (ix : IVec Cert.KernelIdeal.S4x1600000 32) (hin : ∀ y, 0 ≤ (ix y).toInt ∧ (ix y).toInt < 50000) :
    Cert.KernelIdeal.Stg.rowF1 (Cert.KernelIdeal.Stg.normAll (F := Ideal) ix) = Cert.ReferenceIdeal.Stg.norm (F := Ideal) (Cert.KernelIdeal.Stg.rowI1 ix) := by
  funext y
  obtain ⟨v, rfl⟩ : ∃ v : Fin 50000, y = ix1 v := ⟨y 0, eq_ix1 y⟩
  rw [Cert.Rows.rowF1_apply]
  exact normAll_row ix hin (1 : Fin 4) _ (Cert.Rows.rowI1_apply ix) v

/-- Relation 2's row of the kernel's norm table is the reference's norm of relation 2's ids. -/
theorem rowF2_normAll (ix : IVec Cert.KernelIdeal.S4x1600000 32) (hin : ∀ y, 0 ≤ (ix y).toInt ∧ (ix y).toInt < 50000) :
    Cert.KernelIdeal.Stg.rowF2 (Cert.KernelIdeal.Stg.normAll (F := Ideal) ix) = Cert.ReferenceIdeal.Stg.norm (F := Ideal) (Cert.KernelIdeal.Stg.rowI2 ix) := by
  funext y
  obtain ⟨v, rfl⟩ : ∃ v : Fin 50000, y = ix1 v := ⟨y 0, eq_ix1 y⟩
  rw [Cert.Rows.rowF2_apply]
  exact normAll_row ix hin (2 : Fin 4) _ (Cert.Rows.rowI2_apply ix) v

/-- Relation 3's row of the kernel's norm table is the reference's norm of relation 3's ids. -/
theorem rowF3_normAll (ix : IVec Cert.KernelIdeal.S4x1600000 32) (hin : ∀ y, 0 ≤ (ix y).toInt ∧ (ix y).toInt < 50000) :
    Cert.KernelIdeal.Stg.rowF3 (Cert.KernelIdeal.Stg.normAll (F := Ideal) ix) = Cert.ReferenceIdeal.Stg.norm (F := Ideal) (Cert.KernelIdeal.Stg.rowI3 ix) := by
  funext y
  obtain ⟨v, rfl⟩ : ∃ v : Fin 50000, y = ix1 v := ⟨y 0, eq_ix1 y⟩
  rw [Cert.Rows.rowF3_apply]
  exact normAll_row ix hin (3 : Fin 4) _ (Cert.Rows.rowI3_apply ix) v

/-! ## Every norm is a real number -/

/-- A finite sum of ones is a real number. -/
theorem sum_one_real {ι : Type*} (s : Finset ι) : ∃ x : ℝ, ∑ _j ∈ s, (1 : EReal) = (x : EReal) := by
  classical
  refine Finset.induction_on s ⟨0, by simp⟩ ?_
  intro a s ha ih
  obtain ⟨x, hx⟩ := ih
  exact ⟨1 + x, by rw [Finset.sum_insert ha, hx, EReal.coe_add, EReal.coe_one]⟩

/-- The f32 pattern `0xBF000000` is the real minus one half. -/
theorem ofBits_neg_half_f32 : Ideal.ofBits .f32 0xBF000000#32 = ((-(1 / 2 : ℝ) : ℝ) : EReal) := by
  simp [Ideal.ofBits, Ideal.ieee, -EReal.coe_mul, -EReal.coe_neg]; norm_num

/-- Every entry of the kernel's norm table is a real number, whatever the ids: a count is zero plus a finite sum of
    ones, a real c; the maximum with one is the real max(1, c); a real to a real power is a real. -/
theorem normAll_real (ix : IVec Cert.KernelIdeal.S4x1600000 32) (y : Cert.KernelIdeal.S4x50000.Idx) :
    ∃ x : ℝ, Cert.KernelIdeal.Stg.normAll (F := Ideal) ix y = (x : EReal) := by
  obtain ⟨r, v, rfl⟩ : ∃ (r : Fin 4) (v : Fin 50000), y = ix2 r v := ⟨y 0, y 1, eq_ix2 y⟩
  have hr := r.isLt
  have hv := v.isLt
  have hdeg := degAll_apply ix r v ⟨r.val * 50000 + v.val, by omega⟩ rfl
  obtain ⟨c, hc⟩ := sum_one_real (Finset.univ.filter (fun j : Fin 6400000 =>
    (Cert.KernelIdeal.Stg.flatIds ix (ix1 j)).toInt = ((⟨r.val * 50000 + v.val, by omega⟩ : Fin 200000).val : ℤ)))
  rw [Ideal.ofBits_zero_f32, Ideal.ofBits_one_f32, hc, zero_add] at hdeg
  have hmax : max (1 : EReal) (c : EReal) = ((max 1 c : ℝ) : EReal) := by
    rw [← EReal.coe_one]; exact (EReal.coe_strictMono.monotone.map_max).symm
  have e1 : broadcastInDim Cert.KernelIdeal.S4x50000 ![] Cert.KernelIdeal.Gen.bcast_S_S4x50000
      (id (constant (F := Ideal) Cert.KernelIdeal.S_ .f32 0x3F800000#32)) (ix2 r v) = Ideal.ofBits .f32 0x3F800000#32 :=
    (broadcastInDim_scalar_apply _ _ _).trans (constant_apply _ _)
  have e2 : broadcastInDim Cert.KernelIdeal.S4x50000 ![] Cert.KernelIdeal.Gen.bcast_S_S4x50000
      (constant (F := Ideal) Cert.KernelIdeal.S_ .f32 0xBF000000#32) (ix2 r v) = Ideal.ofBits .f32 0xBF000000#32 :=
    (broadcastInDim_scalar_apply _ _ _).trans (constant_apply _ _)
  refine ⟨Real.rpow (max 1 c) (-(1 / 2 : ℝ)), ?_⟩
  unfold Cert.KernelIdeal.Stg.normAll
  rw [hostPowf_apply, maximumf_apply, hdeg, e1, e2, Ideal.ofBits_one_f32, ofBits_neg_half_f32, hmax, Ideal.pow_coe_coe]

end Cert.Norms

end
-- ==== Proof.Proj.lean ====
/-
  The kernel multiplies X by all four weight matrices at once (columns r·128 … r·128+127 of the packed product
  are X · W[r]) and then scales row n by the out-degree norm of n; the reference scales row n of X first and then
  multiplies by W[r]. For real X, W and norms the two are equal entry by entry:
  (Σ_k X[n,k] · W[r,k,j]) · s = Σ_k (X[n,k] · s) · W[r,k,j].
-/
import proofs.«416891_j20418274525632_3_alg».proof.Proof.KStages
import proofs.«416891_j20418274525632_3_alg».proof.Proof.RStages
import proofs.«416891_j20418274525632_3_alg».proof.Proof.HSpec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Proj

open Idealize.ShloMosaic Idealize.ShloMosaic.ValueIdx

open Cert.HSpec

/-! ## The law on the reals, carried to the extended reals -/

/-- The coercion of the reals into the extended reals commutes with a finite sum. -/
theorem coe_finsum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Scaling a finite sum of products of reals by a real scales the first factor of each product. -/
theorem sum_mul_scale {ι : Type} [Fintype ι] (x w : ι → ℝ) (s : ℝ) :
    (∑ k, (x k : EReal) * (w k : EReal)) * (s : EReal) = ∑ k, ((x k : EReal) * (s : EReal)) * (w k : EReal) := by
  have h1 : (∑ k, (x k : EReal) * (w k : EReal)) = ((∑ k, x k * w k : ℝ) : EReal) := by
    rw [coe_finsum]; exact Finset.sum_congr rfl fun k _ => (EReal.coe_mul _ _).symm
  have h2 : (∑ k, ((x k : EReal) * (s : EReal)) * (w k : EReal)) = ((∑ k, x k * s * w k : ℝ) : EReal) := by
    rw [coe_finsum]; exact Finset.sum_congr rfl fun k _ => by rw [EReal.coe_mul, EReal.coe_mul]
  rw [h1, h2, ← EReal.coe_mul, Finset.sum_mul]
  exact congrArg _ (Finset.sum_congr rfl fun k _ => by ring)

/-! ## Layout reads, generic in the relation r -/

section Reads
open Cert.KernelIdeal Cert.KernelIdeal.Gen

/-- Column r·128 + j of row k of the packed weights is W[r, k, j]. -/
theorem wPacked_apply (W : FVec Ideal S4x256x128 .f32) (r : Nat) (hr : r < 4) (k : Fin 256) (j : Fin 128)
    (hc : r * 128 + j.val < 512) :
    Cert.KernelIdeal.Stg.wPacked (F := Ideal) W (ix2 k (⟨r * 128 + j.val, hc⟩ : Fin 512)) = W (ix3 (⟨r, hr⟩ : Fin 4) k j) := by
  unfold Cert.KernelIdeal.Stg.wPacked
  refine (shapeCast_apply _ shapeCasts_S256x4x128_S256x512 _ (ix3 k (⟨r, hr⟩ : Fin 4) j) ?_).trans ?_
  · rewrite [Shape.rowMajor_val_three, Shape.rowMajor_val_two]
    have hk : k.val < 256 := k.isLt
    have hj : j.val < 128 := j.isLt
    show (k.val * 4 + r) * 128 + j.val = k.val * 512 + (r * 128 + j.val)
    omega
  · exact transpose_apply [1, 0, 2] W transposes_S4x256x128_S256x4x128_1_0_2 _ (ix3 (⟨r, hr⟩ : Fin 4) k j) (fun b => match b with
      | ⟨0, _⟩ => rfl
      | ⟨1, _⟩ => rfl
      | ⟨2, _⟩ => rfl)

/-- Row r of a [4, 50000] array, read at n. -/
theorem rowF_apply (N : FVec Ideal S4x50000 .f32) (r : Nat) (hr : r < 4) (hs : S4x50000.Slices ![r, 0] S1x50000) (n : Fin 50000) :
    (shapeCast S50000 (extractStridedSlice S1x50000 ![r, 0] N hs) shapeCasts_S1x50000_S50000 : FVec Ideal S50000 .f32) (ix1 n)
      = N (ix2 (⟨r, hr⟩ : Fin 4) n) := by
  refine (shapeCast_apply _ shapeCasts_S1x50000_S50000 _ (ix2 (⟨0, Nat.one_pos⟩ : Fin 1) n) ?_).trans ?_
  · rewrite [Shape.rowMajor_val_two, Shape.rowMajor_val_one]
    show 0 * 50000 + n.val = n.val
    omega
  · exact extractStridedSlice_apply ![r, 0] N hs _ (ix2 (⟨r, hr⟩ : Fin 4) n) (fun a => match a with
      | ⟨0, _⟩ => by show r = r + 0; omega
      | ⟨1, _⟩ => by show n.val = 0 + n.val; omega)

end Reads

section KernelRead
open Cert.KernelIdeal Cert.KernelIdeal.Gen

/-- The kernel's scaled block r at (n, j): entry (n, r·128 + j) of H times entry (r, n) of the norm table. -/
theorem kblock_apply (H : FVec Ideal S50000x512 .f32) (ON : FVec Ideal S4x50000 .f32) (r : Nat) (hr : r < 4)
    (hs : S50000x4x128.Slices ![0, r, 0] S50000x1x128) (hs' : S4x50000.Slices ![r, 0] S1x50000)
    (n : Fin 50000) (j : Fin 128) (hc : r * 128 + j.val < 512) :
    (mulf (shapeCast S50000x128 (extractStridedSlice S50000x1x128 ![0, r, 0] (shapeCast S50000x4x128 H shapeCasts_S50000x512_S50000x4x128) hs) shapeCasts_S50000x1x128_S50000x128)
      (broadcastInDim S50000x128 ![0, 1] bcast_S50000x1_S50000x128_0_1 (broadcastInDim S50000x1 ![0] bcast_S50000_S50000x1_0
        (shapeCast S50000 (extractStridedSlice S1x50000 ![r, 0] ON hs') shapeCasts_S1x50000_S50000))) : FVec Ideal S50000x128 .f32) (ix2 n j)
      = H (ix2 n (⟨r * 128 + j.val, hc⟩ : Fin 512)) * ON (ix2 (⟨r, hr⟩ : Fin 4) n) := by
  rw [mulf_apply]
  have hn : n.val < 50000 := n.isLt
  have hj : j.val < 128 := j.isLt
  have e1 : (shapeCast S50000x128 (extractStridedSlice S50000x1x128 ![0, r, 0] (shapeCast S50000x4x128 H shapeCasts_S50000x512_S50000x4x128) hs) shapeCasts_S50000x1x128_S50000x128) (ix2 n j)
      = H (ix2 n (⟨r * 128 + j.val, hc⟩ : Fin 512)) := by
    refine (shapeCast_apply _ shapeCasts_S50000x1x128_S50000x128 _ (ix3 n (⟨0, Nat.one_pos⟩ : Fin 1) j) ?_).trans ?_
    · rewrite [Shape.rowMajor_val_three, Shape.rowMajor_val_two]
      show (n.val * 1 + 0) * 128 + j.val = n.val * 128 + j.val
      omega
    refine (extractStridedSlice_apply ![0, r, 0] _ hs _ (ix3 n (⟨r, hr⟩ : Fin 4) j) (fun a => match a with
      | ⟨0, _⟩ => by show n.val = 0 + n.val; omega
      | ⟨1, _⟩ => by show r = r + 0; omega
      | ⟨2, _⟩ => by show j.val = 0 + j.val; omega)).trans ?_
    refine shapeCast_apply H shapeCasts_S50000x512_S50000x4x128 _ (ix2 n (⟨r * 128 + j.val, hc⟩ : Fin 512)) ?_
    rewrite [Shape.rowMajor_val_three, Shape.rowMajor_val_two]
    show n.val * 512 + (r * 128 + j.val) = (n.val * 4 + r) * 128 + j.val
    omega
  have e2 : (broadcastInDim S50000x128 ![0, 1] bcast_S50000x1_S50000x128_0_1 (broadcastInDim S50000x1 ![0] bcast_S50000_S50000x1_0
        (shapeCast S50000 (extractStridedSlice S1x50000 ![r, 0] ON hs') shapeCasts_S1x50000_S50000)) : FVec Ideal S50000x128 .f32) (ix2 n j)
      = ON (ix2 (⟨r, hr⟩ : Fin 4) n) := by
    refine (broadcastInDim_apply _ bcast_S50000x1_S50000x128_0_1 _ _ (ix2 n (⟨0, Nat.one_pos⟩ : Fin 1)) (fun a => match a with
      | ⟨0, _⟩ => by show n.val = if (50000 : Nat) = 1 then 0 else n.val; rw [if_neg (by decide)]
      | ⟨1, _⟩ => by show 0 = if (1 : Nat) = 1 then 0 else j.val; rw [if_pos rfl])).trans ?_
    refine (broadcastInDim_apply _ bcast_S50000_S50000x1_0 _ _ (ix1 n) (fun a => match a with
      | ⟨0, _⟩ => by show n.val = if (50000 : Nat) = 1 then 0 else n.val; rw [if_neg (by decide)])).trans ?_
    exact rowF_apply ON r hr hs' n
  rw [e1, e2]

end KernelRead

section RefRead
open Cert.ReferenceIdeal Cert.ReferenceIdeal.Gen

/-- Slice r of the weights, read at (k, j). -/
theorem wRel_apply (W : FVec Ideal S4x256x128 .f32) (r : Nat) (hr : r < 4) (hs : S4x256x128.Slices ![r, 0, 0] S1x256x128)
    (k : Fin 256) (j : Fin 128) :
    (shapeCast S256x128 (extractStridedSlice S1x256x128 ![r, 0, 0] W hs) shapeCasts_S1x256x128_S256x128 : FVec Ideal S256x128 .f32) (ix2 k j)
      = W (ix3 (⟨r, hr⟩ : Fin 4) k j) := by
  have hk : k.val < 256 := k.isLt
  have hj : j.val < 128 := j.isLt
  refine (shapeCast_apply _ shapeCasts_S1x256x128_S256x128 _ (ix3 (⟨0, Nat.one_pos⟩ : Fin 1) k j) ?_).trans ?_
  · rewrite [Shape.rowMajor_val_three, Shape.rowMajor_val_two]
    show (0 * 256 + k.val) * 128 + j.val = k.val * 128 + j.val
    omega
  · exact extractStridedSlice_apply ![r, 0, 0] W hs _ (ix3 (⟨r, hr⟩ : Fin 4) k j) (fun a => match a with
      | ⟨0, _⟩ => by show r = r + 0; omega
      | ⟨1, _⟩ => by show k.val = 0 + k.val; omega
      | ⟨2, _⟩ => by show j.val = 0 + j.val; omega)

/-- The left operand's row coordinate is the result's row. -/
theorem lhs_ax_0 (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin S50000x256.rank) ∈ Cert.ReferenceIdeal.dot_S50000x256_S256x128_S50000x128_1_0_0_1_n_n.lhsBatch by decide), dif_pos (show (0 : Fin S50000x256.rank) ∈ Cert.ReferenceIdeal.dot_S50000x256_S256x128_S50000x128_1_0_0_1_n_n.lhsNonContracting by decide)]
  rfl
/-- The left operand's column coordinate is the contraction coordinate. -/
theorem lhs_ax_1 (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
/-- The right operand's row coordinate is the contraction coordinate. -/
theorem rhs_ax_0 (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
/-- The right operand's column coordinate is the result's column. -/
theorem rhs_ax_1 (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin S256x128.rank) ∈ Cert.ReferenceIdeal.dot_S50000x256_S256x128_S50000x128_1_0_0_1_n_n.rhsBatch by decide), dif_pos (show (1 : Fin S256x128.rank) ∈ Cert.ReferenceIdeal.dot_S50000x256_S256x128_S50000x128_1_0_0_1_n_n.rhsNonContracting by decide)]
  rfl

/-- The reference's projection at (n, j): the sum over k of (X[n, k] · on[n]) · Wr[k, j]. -/
theorem rhRel_apply (X : FVec Ideal S50000x256 .f32) (Wr : FVec Ideal S256x128 .f32) (on : FVec Ideal S50000 .f32)
    (n : Fin 50000) (j : Fin 128) :
    Cert.ReferenceIdeal.Stg.hRel (F := Ideal) X Wr on (ix2 n j) = ∑ k : Fin 256, (X (ix2 n k) * on (ix1 n)) * Wr (ix2 k j) := by
  unfold Cert.ReferenceIdeal.Stg.hRel
  have hy : ∀ k : Fin 256, (mulf X (broadcastInDim S50000x256 ![0, 1] bcast_S50000x1_S50000x256_0_1 (broadcastInDim S50000x1 ![0] bcast_S50000_S50000x1_0 on)) : FVec Ideal S50000x256 .f32) (ix2 n k)
      = X (ix2 n k) * on (ix1 n) := fun k => by
    rw [mulf_apply]
    congr 1
    refine (broadcastInDim_apply _ bcast_S50000x1_S50000x256_0_1 _ _ (ix2 n (⟨0, Nat.one_pos⟩ : Fin 1)) (fun a => match a with
      | ⟨0, _⟩ => by show n.val = if (50000 : Nat) = 1 then 0 else n.val; rw [if_neg (by decide)]
      | ⟨1, _⟩ => by show 0 = if (1 : Nat) = 1 then 0 else k.val; rw [if_pos rfl])).trans ?_
    exact broadcastInDim_apply _ bcast_S50000_S50000x1_0 on _ (ix1 n) (fun a => match a with
      | ⟨0, _⟩ => by show n.val = if (50000 : Nat) = 1 then 0 else n.val; rw [if_neg (by decide)])
  simp only [← hy]
  generalize (mulf X (broadcastInDim S50000x256 ![0, 1] bcast_S50000x1_S50000x256_0_1 (broadcastInDim S50000x1 ![0] bcast_S50000_S50000x1_0 on)) : FVec Ideal S50000x256 .f32) = y0
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 n j) ((ValueIdx.contrEquiv1 Cert.ReferenceIdeal.dot_S50000x256_S256x128_S50000x128_1_0_0_1_n_n 256 rfl rfl).symm k) = ix2 n k := funext fun a => Fin.ext (by
    match a with
    | ⟨0, _⟩ => exact lhs_ax_0 _ _
    | ⟨1, _⟩ => exact (lhs_ax_1 _ _).trans hk)
  have er : Cert.ReferenceIdeal.dot_S50000x256_S256x128_S50000x128_1_0_0_1_n_n.rhsIdx (ix2 n j) ((ValueIdx.contrEquiv1 Cert.ReferenceIdeal.dot_S50000x256_S256x128_S50000x128_1_0_0_1_n_n 256 rfl rfl).symm k) = ix2 k j := funext fun a => Fin.ext (by
    match a with
    | ⟨0, _⟩ => exact (rhs_ax_0 _ _).trans hk
    | ⟨1, _⟩ => exact rhs_ax_1 _ _)
  rw [el, er]

end RefRead

/-! ## The entry-level identity, generic in the relation r, and the four relations -/

/-- Column r·128 + j lies inside the 512 packed columns. -/
theorem col_lt (r : Nat) (hr : r < 4) (j : Fin 128) : r * 128 + j.val < 512 := by
  have hj : j.val < 128 := j.isLt
  omega

/-- Entry (n, r·128 + j) of the packed product, scaled by the norm of n in relation r, is the sum over k of
    (X[n, k] · norm) · W[r, k, j] — for real X, W and norms. -/
theorem entry_eq (X : FVec Ideal Cert.KernelIdeal.S50000x256 .f32) (W : FVec Ideal Cert.KernelIdeal.S4x256x128 .f32)
    (N : FVec Ideal Cert.KernelIdeal.S4x50000 .f32)
    (hX : ∀ i, ∃ x : ℝ, X i = (x : EReal)) (hW : ∀ i, ∃ x : ℝ, W i = (x : EReal)) (hN : ∀ y, ∃ x : ℝ, N y = (x : EReal))
    (r : Nat) (hr : r < 4) (n : Fin 50000) (j : Fin 128) :
    Hfun X (Cert.KernelIdeal.Stg.wPacked (F := Ideal) W) (ix2 n (⟨r * 128 + j.val, col_lt r hr j⟩ : Fin 512)) * N (ix2 (⟨r, hr⟩ : Fin 4) n)
      = ∑ k : Fin 256, (X (ix2 n k) * N (ix2 (⟨r, hr⟩ : Fin 4) n)) * W (ix3 (⟨r, hr⟩ : Fin 4) k j) := by
  choose x hx using hX
  choose w hw using hW
  choose s hs using hN
  show (∑ k : Fin 256, X (ix2 n k) * Cert.KernelIdeal.Stg.wPacked (F := Ideal) W (ix2 k (⟨r * 128 + j.val, col_lt r hr j⟩ : Fin 512))) * N (ix2 (⟨r, hr⟩ : Fin 4) n) = _
  simp only [wPacked_apply W r hr _ j (col_lt r hr j), hx, hw, hs]
  exact sum_mul_scale (fun k => x (ix2 n k)) (fun k => w (ix3 (⟨r, hr⟩ : Fin 4) k j)) (s (ix2 (⟨r, hr⟩ : Fin 4) n))

/-- Relation r from its three reads: a kernel block L that reads as the scaled packed product, a weight matrix Wr that
    reads as W[r], a norm row that reads as row r of the norm table. -/
theorem rel_eq_of_reads (X : FVec Ideal Cert.KernelIdeal.S50000x256 .f32) (W : FVec Ideal Cert.KernelIdeal.S4x256x128 .f32)
    (N : FVec Ideal Cert.KernelIdeal.S4x50000 .f32)
    (hX : ∀ i, ∃ x : ℝ, X i = (x : EReal)) (hW : ∀ i, ∃ x : ℝ, W i = (x : EReal)) (hN : ∀ y, ∃ x : ℝ, N y = (x : EReal))
    (r : Nat) (hr : r < 4)
    (L : FVec Ideal Cert.KernelIdeal.S50000x128 .f32) (Wr : FVec Ideal Cert.ReferenceIdeal.S256x128 .f32) (on : FVec Ideal Cert.ReferenceIdeal.S50000 .f32)
    (hL : ∀ (n : Fin 50000) (j : Fin 128), L (ix2 n j)
      = Hfun X (Cert.KernelIdeal.Stg.wPacked (F := Ideal) W) (ix2 n (⟨r * 128 + j.val, col_lt r hr j⟩ : Fin 512)) * N (ix2 (⟨r, hr⟩ : Fin 4) n))
    (hWr : ∀ (k : Fin 256) (j : Fin 128), Wr (ix2 k j) = W (ix3 (⟨r, hr⟩ : Fin 4) k j))
    (hon : ∀ n : Fin 50000, on (ix1 n) = N (ix2 (⟨r, hr⟩ : Fin 4) n)) :
    L = Cert.ReferenceIdeal.Stg.hRel (F := Ideal) X Wr on := by
  funext i
  obtain ⟨n, j, rfl⟩ : ∃ (n : Fin 50000) (j : Fin 128), i = ix2 n j := ⟨i 0, i 1, eq_ix2 i⟩
  rw [hL n j, entry_eq X W N hX hW hN r hr n j, rhRel_apply X Wr on n j]
  refine Finset.sum_congr rfl fun k _ => ?_
  rw [hWr k j, hon n]

/-- Relation 0: the scaled block of the packed product is the product of the scaled X with W[0]. -/
theorem hRel0_eq (X : FVec Ideal Cert.KernelIdeal.S50000x256 .f32) (W : FVec Ideal Cert.KernelIdeal.S4x256x128 .f32)
    (N : FVec Ideal Cert.KernelIdeal.S4x50000 .f32)
    (hX : ∀ i, ∃ x : ℝ, X i = (x : EReal)) (hW : ∀ i, ∃ x : ℝ, W i = (x : EReal)) (hN : ∀ y, ∃ x : ℝ, N y = (x : EReal)) :
    Cert.KernelIdeal.Stg.hRel0 (F := Ideal) (Hfun X (Cert.KernelIdeal.Stg.wPacked (F := Ideal) W)) N
      = Cert.ReferenceIdeal.Stg.hRel (F := Ideal) X (Cert.ReferenceIdeal.Stg.wRel0 (F := Ideal) W) (Cert.KernelIdeal.Stg.rowF0 (F := Ideal) N) :=
  rel_eq_of_reads X W N hX hW hN 0 (by decide) _ _ _
    (fun n j => kblock_apply _ N 0 (by decide) Cert.KernelIdeal.Gen.slices_S50000x4x128_S50000x1x128_0_0_0 Cert.KernelIdeal.Gen.slices_S4x50000_S1x50000_0_0 n j _)
    (fun k j => wRel_apply W 0 (by decide) Cert.ReferenceIdeal.Gen.slices_S4x256x128_S1x256x128_0_0_0 k j)
    (fun n => rowF_apply N 0 (by decide) Cert.KernelIdeal.Gen.slices_S4x50000_S1x50000_0_0 n)

/-- Relation 1: the scaled block of the packed product is the product of the scaled X with W[1]. -/
theorem hRel1_eq (X : FVec Ideal Cert.KernelIdeal.S50000x256 .f32) (W : FVec Ideal Cert.KernelIdeal.S4x256x128 .f32)
    (N : FVec Ideal Cert.KernelIdeal.S4x50000 .f32)
    (hX : ∀ i, ∃ x : ℝ, X i = (x : EReal)) (hW : ∀ i, ∃ x : ℝ, W i = (x : EReal)) (hN : ∀ y, ∃ x : ℝ, N y = (x : EReal)) :
    Cert.KernelIdeal.Stg.hRel1 (F := Ideal) (Hfun X (Cert.KernelIdeal.Stg.wPacked (F := Ideal) W)) N
      = Cert.ReferenceIdeal.Stg.hRel (F := Ideal) X (Cert.ReferenceIdeal.Stg.wRel1 (F := Ideal) W) (Cert.KernelIdeal.Stg.rowF1 (F := Ideal) N) :=
  rel_eq_of_reads X W N hX hW hN 1 (by decide) _ _ _
    (fun n j => kblock_apply _ N 1 (by decide) Cert.KernelIdeal.Gen.slices_S50000x4x128_S50000x1x128_0_1_0 Cert.KernelIdeal.Gen.slices_S4x50000_S1x50000_1_0 n j _)
    (fun k j => wRel_apply W 1 (by decide) Cert.ReferenceIdeal.Gen.slices_S4x256x128_S1x256x128_1_0_0 k j)
    (fun n => rowF_apply N 1 (by decide) Cert.KernelIdeal.Gen.slices_S4x50000_S1x50000_1_0 n)

/-- Relation 2: the scaled block of the packed product is the product of the scaled X with W[2]. -/
theorem hRel2_eq (X : FVec Ideal Cert.KernelIdeal.S50000x256 .f32) (W : FVec Ideal Cert.KernelIdeal.S4x256x128 .f32)
    (N : FVec Ideal Cert.KernelIdeal.S4x50000 .f32)
    (hX : ∀ i, ∃ x : ℝ, X i = (x : EReal)) (hW : ∀ i, ∃ x : ℝ, W i = (x : EReal)) (hN : ∀ y, ∃ x : ℝ, N y = (x : EReal)) :
    Cert.KernelIdeal.Stg.hRel2 (F := Ideal) (Hfun X (Cert.KernelIdeal.Stg.wPacked (F := Ideal) W)) N
      = Cert.ReferenceIdeal.Stg.hRel (F := Ideal) X (Cert.ReferenceIdeal.Stg.wRel2 (F := Ideal) W) (Cert.KernelIdeal.Stg.rowF2 (F := Ideal) N) :=
  rel_eq_of_reads X W N hX hW hN 2 (by decide) _ _ _
    (fun n j => kblock_apply _ N 2 (by decide) Cert.KernelIdeal.Gen.slices_S50000x4x128_S50000x1x128_0_2_0 Cert.KernelIdeal.Gen.slices_S4x50000_S1x50000_2_0 n j _)
    (fun k j => wRel_apply W 2 (by decide) Cert.ReferenceIdeal.Gen.slices_S4x256x128_S1x256x128_2_0_0 k j)
    (fun n => rowF_apply N 2 (by decide) Cert.KernelIdeal.Gen.slices_S4x50000_S1x50000_2_0 n)

/-- Relation 3: the scaled block of the packed product is the product of the scaled X with W[3]. -/
theorem hRel3_eq (X : FVec Ideal Cert.KernelIdeal.S50000x256 .f32) (W : FVec Ideal Cert.KernelIdeal.S4x256x128 .f32)
    (N : FVec Ideal Cert.KernelIdeal.S4x50000 .f32)
    (hX : ∀ i, ∃ x : ℝ, X i = (x : EReal)) (hW : ∀ i, ∃ x : ℝ, W i = (x : EReal)) (hN : ∀ y, ∃ x : ℝ, N y = (x : EReal)) :
    Cert.KernelIdeal.Stg.hRel3 (F := Ideal) (Hfun X (Cert.KernelIdeal.Stg.wPacked (F := Ideal) W)) N
      = Cert.ReferenceIdeal.Stg.hRel (F := Ideal) X (Cert.ReferenceIdeal.Stg.wRel3 (F := Ideal) W) (Cert.KernelIdeal.Stg.rowF3 (F := Ideal) N) :=
  rel_eq_of_reads X W N hX hW hN 3 (by decide) _ _ _
    (fun n j => kblock_apply _ N 3 (by decide) Cert.KernelIdeal.Gen.slices_S50000x4x128_S50000x1x128_0_3_0 Cert.KernelIdeal.Gen.slices_S4x50000_S1x50000_3_0 n j _)
    (fun k j => wRel_apply W 3 (by decide) Cert.ReferenceIdeal.Gen.slices_S4x256x128_S1x256x128_3_0_0 k j)
    (fun n => rowF_apply N 3 (by decide) Cert.KernelIdeal.Gen.slices_S4x50000_S1x50000_3_0 n)

end Cert.Proj

end
-- ==== Proof.Bridge.lean ====
/-
  The two results are one function of the arguments. Both are the sum over the four relations r of the same message
  aggregation (gather at the sources, scatter-add at the destinations, scale by the in-degree norm) applied to: a
  projection, the source row, the destination row, the in-degree norm. Relation by relation these four are equal:
  the rows are the same entries of the edge table; the norms are equal because, all ids being node ids, the one
  shifted count and the per-relation count agree; and the projection X·W[r] scaled row by row afterwards equals the
  projection of the scaled X, X, W and the norms being real.
-/
import proofs.«416891_j20418274525632_3_alg».proof.Proof.KStages
import proofs.«416891_j20418274525632_3_alg».proof.Proof.RStages
import proofs.«416891_j20418274525632_3_alg».proof.Proof.HSpec
import proofs.«416891_j20418274525632_3_alg».proof.Proof.Rows
import proofs.«416891_j20418274525632_3_alg».proof.Proof.Norms
import proofs.«416891_j20418274525632_3_alg».proof.Proof.Proj

noncomputable section

namespace Cert.Bridge

open Idealize.ShloMosaic Cert.HSpec

/-- The message aggregation is one function in both programs. -/
theorem agg_same : @Cert.KernelIdeal.Stg.agg Ideal _ = @Cert.ReferenceIdeal.Stg.agg Ideal _ := rfl

/-- The kernel program's result, from the packed product of the arguments, is the reference's result. -/
theorem bridge (X : FVec Ideal Cert.KernelIdeal.S50000x256 .f32) (W : FVec Ideal Cert.KernelIdeal.S4x256x128 .f32)
    (e : IVec Cert.KernelIdeal.S4x2x1600000 32)
    (hX : ∀ i, ∃ x : ℝ, X i = (x : EReal)) (hW : ∀ i, ∃ x : ℝ, W i = (x : EReal))
    (he : ∀ y, 0 ≤ (e y).toInt ∧ (e y).toInt < 50000) :
    Cert.KernelIdeal.Stg.kres (F := Ideal) (Hfun X (Cert.KernelIdeal.Stg.wPacked (F := Ideal) W)) e = Cert.ReferenceIdeal.Stg.rres (F := Ideal) X W e := by
  have hs := Cert.Rows.srcAll_range e he
  have hd := Cert.Rows.dstAll_range e he
  have hN : ∀ y, ∃ x : ℝ, Cert.KernelIdeal.Stg.normAll (F := Ideal) (Cert.KernelIdeal.Stg.srcAll e) y = (x : EReal) := Cert.Norms.normAll_real _
  unfold Cert.KernelIdeal.Stg.kres Cert.ReferenceIdeal.Stg.rres
  rw [Cert.Proj.hRel0_eq X W _ hX hW hN, Cert.Proj.hRel1_eq X W _ hX hW hN, Cert.Proj.hRel2_eq X W _ hX hW hN,
    Cert.Proj.hRel3_eq X W _ hX hW hN,
    Cert.Norms.rowF0_normAll _ hs, Cert.Norms.rowF1_normAll _ hs, Cert.Norms.rowF2_normAll _ hs, Cert.Norms.rowF3_normAll _ hs,
    Cert.Norms.rowF0_normAll _ hd, Cert.Norms.rowF1_normAll _ hd, Cert.Norms.rowF2_normAll _ hd, Cert.Norms.rowF3_normAll _ hd,
    Cert.Rows.rowI0_srcAll, Cert.Rows.rowI1_srcAll, Cert.Rows.rowI2_srcAll, Cert.Rows.rowI3_srcAll,
    Cert.Rows.rowI0_dstAll, Cert.Rows.rowI1_dstAll, Cert.Rows.rowI2_dstAll, Cert.Rows.rowI3_dstAll, agg_same]

end Cert.Bridge

end
-- ==== Proof.lean ====
/-
  The certificate of the multi-relation graph convolution: for every relation r, H_r = X · W[r] with row n scaled by
  max(1, outdeg_r(n))^(-1/2); the rows H_r[src] are added into the rows dst and row n is scaled by
  max(1, indeg_r(n))^(-1/2); the result is the sum over the four relations.
  The kernel multiplies X by the four weight matrices packed side by side in one pipelined region (rounding the operands
  to a narrower format on the way in, the identity on the extended reals), counts all degrees in one scatter-add over
  node ids shifted by relation·50000, and scales after the product; the reference counts per relation and scales X
  before the product. Under the precondition — X and W finite, every entry of the edge table a node id — the two
  results are equal entry by entry (Proof/Bridge.lean), the kernel's value read off its frame run (Proof/KernelFinal.lean,
  Proof/KernelValue.lean) and the reference's off its run (Proof/RefValue.lean). The three frames are the runs with the
  results dropped; the idealization rewrote nothing, so it preserves trivially.
-/
import proofs.«416891_j20418274525632_3_alg».proof.Defs
import proofs.«416891_j20418274525632_3_alg».proof.Proof.Gen.Kernel
import proofs.«416891_j20418274525632_3_alg».proof.Proof.Gen.Kernel.Skeleton
import proofs.«416891_j20418274525632_3_alg».proof.Proof.Gen.Kernel.Launch
import proofs.«416891_j20418274525632_3_alg».proof.Proof.Gen.Kernel.Points
import proofs.«416891_j20418274525632_3_alg».proof.Proof.Gen.KernelIdeal
import proofs.«416891_j20418274525632_3_alg».proof.Proof.Gen.KernelIdeal.Skeleton
import proofs.«416891_j20418274525632_3_alg».proof.Proof.Gen.KernelIdeal.Launch
import proofs.«416891_j20418274525632_3_alg».proof.Proof.Gen.KernelIdeal.Points
import proofs.«416891_j20418274525632_3_alg».proof.Proof.Gen.ReferenceIdeal
import proofs.«416891_j20418274525632_3_alg».proof.Proof.Gen.Pre_finite_inputs
import proofs.«416891_j20418274525632_3_alg».proof.Proof.Gen.ReferenceIdeal.Run
import proofs.«416891_j20418274525632_3_alg».proof.Proof.Gen.ReferenceIdeal.Read
import proofs.«416891_j20418274525632_3_alg».proof.Proof.KernelFrame
import proofs.«416891_j20418274525632_3_alg».proof.Proof.KernelIdealFrame
import proofs.«416891_j20418274525632_3_alg».proof.Proof.KernelValue
import proofs.«416891_j20418274525632_3_alg».proof.Proof.RefValue
import proofs.«416891_j20418274525632_3_alg».proof.Proof.PreDecode
import proofs.«416891_j20418274525632_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs run; the kernel's result is the named function of the packed product and the edge table,
    the reference's the named function of its arguments, and under the precondition they are one function. -/
theorem algebraic : Cert.algebraic_KernelIdeal_ReferenceIdeal := by
  intro m ρ m' ρ' hpre hagree
  refine ⟨_, Cert.KernelIdeal.Val.kernel_run m ρ, ?_⟩
  refine (θ_run Cert.ReferenceIdeal.defs _ _).mono (fun _ h c => ⟨(h c).1.trans ?_, (h c).2⟩)
    (Cert.ReferenceIdeal.Val.ref_run m' ρ')
  obtain ⟨hX, hW, he⟩ := Cert.PreDecode.decode _ _ _ (hpre c)
  rw [(hagree c).1, (hagree c).2.1, (hagree c).2.2]
  exact (Cert.Bridge.bridge _ _ _ hX hW he).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
